-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S2x768 : Shape := ⟨2, ![2, 768]⟩
abbrev S8194x768 : Shape := ⟨2, ![8194, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S2x768 : S_.BroadcastsInDim S2x768 (![] : Fin 0 → Fin S2x768.rank)
  reducesTo_S2x768_S_d0_1 : S2x768.ReducesTo [0, 1] S_
  bcast_S_S8194x768 : S_.BroadcastsInDim S8194x768 (![] : Fin 0 → Fin S8194x768.rank)
  reducesTo_S8194x768_S_d0_1 : S8194x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S4x8192x768 .f32) (main_arg1 : FVec F S2x768 .f32) (main_arg2 : FVec F S8194x768 .f32) (main_arg3 : FVec F S768 .f32) (main_arg4 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S2x768 .f32 := Host.absf main_arg1
  let main_cst_0 : FVec F S_ .f32 := constant S_ .f32 0x7F800000#32
  let main_v5 : FVec F S2x768 .f32 := broadcastInDim S2x768 ![] bcast_S_S2x768 main_cst_0
  let main_v6 : IVec S2x768 1 := cmpf .olt main_v4 main_v5
  let main_c_1 : IVec S_ 1 := constantI S_ 1 1#1
  let main_v7 : IVec S_ 1 := (fun x v => Host.reduce IntOp.andi x v reducesTo_S2x768_S_d0_1 h_S_) main_v6 main_c_1
  let main_v8 : IVec S_ 1 := andi main_v3 main_v7
  let main_v9 : FVec F S8194x768 .f32 := Host.absf main_arg2
  let main_cst_2 : FVec F S_ .f32 := constant S_ .f32 0x7F800000#32
  let main_v10 : FVec F S8194x768 .f32 := broadcastInDim S8194x768 ![] bcast_S_S8194x768 main_cst_2
  let main_v11 : IVec S8194x768 1 := cmpf .olt main_v9 main_v10
  let main_c_3 : IVec S_ 1 := constantI S_ 1 1#1
  let main_v12 : IVec S_ 1 := (fun x v => Host.reduce IntOp.andi x v reducesTo_S8194x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_v13 main_v16
-- ==== Kernel.lean ====
abbrev S4x8192x768 : Shape := ⟨3, ![4, 8192, 768]⟩
abbrev S2x768 : Shape := ⟨2, ![2, 768]⟩
abbrev S8194x768 : Shape := ⟨2, ![8194, 768]⟩
abbrev S768 : Shape := ⟨1, ![768]⟩
abbrev S1x768 : Shape := ⟨2, ![1, 768]⟩
abbrev S4x1024x768 : Shape := ⟨3, ![4, 1024, 768]⟩
abbrev S1024x768 : Shape := ⟨2, ![1024, 768]⟩
abbrev S8x768 : Shape := ⟨2, ![8, 768]⟩
abbrev S1022x768 : Shape := ⟨2, ![1022, 768]⟩
abbrev S1x1024x768 : Shape := ⟨3, ![1, 1024, 768]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S4x8192x768, .f32⟩
  | .hbm, ⟨1, _⟩ => ⟨S2x768, .f32⟩
  | .hbm, ⟨2, _⟩ => ⟨S8194x768, .f32⟩
  | .hbm, ⟨3, _⟩ => ⟨S768, .f32⟩
  | .hbm, ⟨4, _⟩ => ⟨S768, .f32⟩
  | .hbm, ⟨5, _⟩ => ⟨S1x768, .f32⟩
  | .hbm, ⟨6, _⟩ => ⟨S1x768, .f32⟩
  | .hbm, ⟨7, _⟩ => ⟨S4x8192x768, .f32⟩
  | .local _ .vmem, ⟨0, _⟩ => ⟨S4x1024x768, .f32⟩
  | .local _ .vmem, ⟨1, _⟩ => ⟨S4x1024x768, .f32⟩
  | .local _ .vmem, ⟨2, _⟩ => ⟨S1024x768, .f32⟩
  | .local _ .vmem, ⟨3, _⟩ => ⟨S1024x768, .f32⟩
  | .local _ .vmem, ⟨4, _⟩ => ⟨S8x768, .f32⟩
  | .local _ .vmem, ⟨5, _⟩ => ⟨S8x768, .f32⟩
  | .local _ .vmem, ⟨6, _⟩ => ⟨S2x768, .f32⟩
  | .local _ .vmem, ⟨7, _⟩ => ⟨S1x768, .f32⟩
  | .local _ .vmem, ⟨8, _⟩ => ⟨S1x768, .f32⟩
  | .local _ .vmem, ⟨9, _⟩ => ⟨S4x1024x768, .f32⟩
  | .local _ .vmem, ⟨10, _⟩ => ⟨S4x1024x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli c128_i32 v0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S768_S1x768 : S768.ShapeCasts S1x768
  inb_S1024x768_S1022x768_2_0 : ∀ a, (![2, 0] : Fin 2 → Nat) a + S1022x768.size a ≤ S1024x768.size a
  h_S1022x768 : 0 < S1022x768.numel
  inb_S8x768_S2x768_0_0 : ∀ a, (![0, 0] : Fin 2 → Nat) a + S2x768.size a ≤ S8x768.size a
  h_S2x768 : 0 < S2x768.numel
  concatenates_S1022x768_S2x768_S1024x768_d0 : Shape.Concatenates [S1022x768, S2x768] S1024x768 0
  inb_S2x768_S1x768_0_0 : ∀ a, (![0, 0] : Fin 2 → Nat) a + S1x768.size a ≤ S2x768.size a
  h_S1x768 : 0 < S1x768.numel
  broadcasts_S1x768_S1024x768 : S1x768.Broadcasts S1024x768
  inb_S4x1024x768_S1x1024x768_0_0_0 : ∀ a, (![0, 0, 0] : Fin 3 → Nat) a + S1x1024x768.size a ≤ S4x1024x768.size a
  h_S1x1024x768 : 0 < S1x1024x768.numel
  shapeCasts_S1x1024x768_S1024x768 : S1x1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  inb_S1x768_S1x768_0_0 : ∀ a, (![0, 0] : Fin 2 → Nat) a + S1x768.size a ≤ S1x768.size a
  shapeCasts_S1x768_S1x768 : S1x768.ShapeCasts S1x768
  shapeCasts_S1024x768_S1x1024x768 : S1024x768.ShapeCasts S1x1024x768
  inb_S4x1024x768_S1x1024x768_1_0_0 : ∀ a, (![1, 0, 0] : Fin 3 → Nat) a + S1x1024x768.size a ≤ S4x1024x768.size a
  inb_S4x1024x768_S1x1024x768_2_0_0 : ∀ a, (![2, 0, 0] : Fin 3 → Nat) a + S1x1024x768.size a ≤ S4x1024x768.size a
  inb_S4x1024x768_S1x1024x768_3_0_0 : ∀ a, (![3, 0, 0] : Fin 3 → Nat) a + S1x1024x768.size a ≤ S4x1024x768.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x768.size a ≤ S4x8192x768.size a
  hwx0_0 : ∀ i : grid0.Coords, EltTy.bits .f32 = 32 ∨ (Rect.block (s := S4x8192x768) S4x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x768.size a < S8194x768.size a
  hwx0_1 : ∀ i : grid0.Coords, EltTy.bits .f32 = 32 ∨ (Rect.unit (s := S8194x768) (fun a => cc0_transform_1 i a * S1024x768.size a) (fun a => (Pipeline.Clip.of (cc0_transform_1 i a) (S1024x768.size a) (S8194x768.size a)).extent (S1024x768.size a)) fun a => Pipeline.Clip.inb (Pipeline.Clip.ok_of (hstart0_1 i a))).WholeWords (EltTy.packing .f32)
  hwxs0_1 : ∀ i : grid0.Coords, EltTy.bits .f32 = 32 ∨ (Rect.unit (s := S1024x768) (fun _ => 0) (fun a => (Pipeline.Clip.of (cc0_transform_1 i a) (S1024x768.size a) (S8194x768.size a)).extent (S1024x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8x768.size a < S8194x768.size a
  hwx0_2 : ∀ i : grid0.Coords, EltTy.bits .f32 = 32 ∨ (Rect.unit (s := S8194x768) (fun a => cc0_transform_2 i a * S8x768.size a) (fun a => (Pipeline.Clip.of (cc0_transform_2 i a) (S8x768.size a) (S8194x768.size a)).extent (S8x768.size a)) fun a => Pipeline.Clip.inb (Pipeline.Clip.ok_of (hstart0_2 i a))).WholeWords (EltTy.packing .f32)
  hwxs0_2 : ∀ i : grid0.Coords, EltTy.bits .f32 = 32 ∨ (Rect.unit (s := S8x768) (fun _ => 0) (fun a => (Pipeline.Clip.of (cc0_transform_2 i a) (S8x768.size a) (S8194x768.size a)).extent (S8x768.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x768.size a ≤ S2x768.size a
  hwx0_3 : ∀ i : grid0.Coords, EltTy.bits .f32 = 32 ∨ (Rect.block (s := S2x768) S2x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1024x768.size a ≤ S4x8192x768.size a
  hwx0_6 : ∀ i : grid0.Coords, EltTy.bits .f32 = 32 ∨ (Rect.block (s := S4x8192x768) S4x1024x768.size (cc0_transform_6 i) (hinb0_6 i)).WholeWords (EltTy.packing .f32)

variable [Facts₀]

abbrev win0_0 : Pipeline.Window sig grid0 :=
  Pipeline.Window.ofSpec (Memref.whole main_arg0) S4x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S1024x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S8x768.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg1) S2x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4x1024x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S2x768 : Shape := ⟨2, ![2, 768]⟩
abbrev S8194x768 : Shape := ⟨2, ![8194, 768]⟩
abbrev S768 : Shape := ⟨1, ![768]⟩
abbrev S8192 : Shape := ⟨1, ![8192]⟩
abbrev S_ : Shape := ⟨0, ![]⟩
abbrev S1x8192 : Shape := ⟨2, ![1, 8192]⟩
abbrev S4x8192 : Shape := ⟨2, ![4, 8192]⟩
abbrev S4x8192x1 : Shape := ⟨3, ![4, 8192, 1]⟩
abbrev S1 : Shape := ⟨1, ![1]⟩
abbrev S1x1x1 : Shape := ⟨3, ![1, 1, 1]⟩
abbrev S1x1x768 : Shape := ⟨3, ![1, 1, 768]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S2x768, .f32⟩
  | .hbm, ⟨2, _⟩ => ⟨S8194x768, .f32⟩
  | .hbm, ⟨3, _⟩ => ⟨S768, .f32⟩
  | .hbm, ⟨4, _⟩ => ⟨S768, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S1x8192, .i32⟩
  | .hbm, ⟨10, _⟩ => ⟨S4x8192, .i32⟩
  | .hbm, ⟨11, _⟩ => ⟨S_, .i32⟩
  | .hbm, ⟨12, _⟩ => ⟨S4x8192, .i32⟩
  | .hbm, ⟨13, _⟩ => ⟨S_, .i32⟩
  | .hbm, ⟨14, _⟩ => ⟨S4x8192, .i32⟩
  | .hbm, ⟨15, _⟩ => ⟨S4x8192, .i1⟩
  | .hbm, ⟨16, _⟩ => ⟨S_, .i32⟩
  | .hbm, ⟨17, _⟩ => ⟨S4x8192, .i32⟩
  | .hbm, ⟨18, _⟩ => ⟨S4x8192, .i32⟩
  | .hbm, ⟨19, _⟩ => ⟨S4x8192, .i32⟩
  | .hbm, ⟨20, _⟩ => ⟨S4x8192x1, .i32⟩
  | .hbm, ⟨21, _⟩ => ⟨S1, .i32⟩
  | .hbm, ⟨22, _⟩ => ⟨S_, .i32⟩
  | .hbm, ⟨23, _⟩ => ⟨S4x8192x1, .i32⟩
  | .hbm, ⟨24, _⟩ => ⟨S4x8192x1, .i1⟩
  | .hbm, ⟨25, _⟩ => ⟨S1x1x1, .i32⟩
  | .hbm, ⟨26, _⟩ => ⟨S4x8192x1, .i32⟩
  | .hbm, ⟨27, _⟩ => ⟨S4x8192x1, .i1⟩
  | .hbm, ⟨28, _⟩ => ⟨S4x8192x1, .i1⟩
  | .hbm, ⟨29, _⟩ => ⟨S_, .i1⟩
  | .hbm, ⟨30, _⟩ => ⟨S4x8192, .i1⟩
  | .hbm, ⟨31, _⟩ => ⟨S4x8192x768, .f32⟩
  | .hbm, ⟨32, _⟩ => ⟨S4x8192x768, .i1⟩
  | .hbm, ⟨33, _⟩ => ⟨S_, .f32⟩
  | .hbm, ⟨34, _⟩ => ⟨S4x8192x768, .f32⟩
  | .hbm, ⟨35, _⟩ => ⟨S4x8192x768, .f32⟩
  | .hbm, ⟨36, _⟩ => ⟨S4x8192x768, .f32⟩
  | .hbm, ⟨37, _⟩ => ⟨S_, .i32⟩
  | .hbm, ⟨38, _⟩ => ⟨S4x8192, .i32⟩
  | .hbm, ⟨39, _⟩ => ⟨S4x8192, .i1⟩
  | .hbm, ⟨40, _⟩ => ⟨S_, .i32⟩
  | .hbm, ⟨41, _⟩ => ⟨S4x8192, .i32⟩
  | .hbm, ⟨42, _⟩ => ⟨S4x8192, .i32⟩
  | .hbm, ⟨43, _⟩ => ⟨S4x8192, .i32⟩
  | .hbm, ⟨44, _⟩ => ⟨S4x8192x1, .i32⟩
  | .hbm, ⟨45, _⟩ => ⟨S1, .i32⟩
  | .hbm, ⟨46, _⟩ => ⟨S_, .i32⟩
  | .hbm, ⟨47, _⟩ => ⟨S4x8192x1, .i32⟩
  | .hbm, ⟨48, _⟩ => ⟨S4x8192x1, .i1⟩
  | .hbm, ⟨49, _⟩ => ⟨S1x1x1, .i32⟩
  | .hbm, ⟨50, _⟩ => ⟨S4x8192x1, .i32⟩
  | .hbm, ⟨51, _⟩ => ⟨S4x8192x1, .i1⟩
  | .hbm, ⟨52, _⟩ => ⟨S4x8192x1, .i1⟩
  | .hbm, ⟨53, _⟩ => ⟨S_, .i1⟩
  | .hbm, ⟨54, _⟩ => ⟨S4x8192, .i1⟩
  | .hbm, ⟨55, _⟩ => ⟨S4x8192x768, .f32⟩
  | .hbm, ⟨56, _⟩ => ⟨S4x8192x768, .i1⟩
  | .hbm, ⟨57, _⟩ => ⟨S_, .f32⟩
  | .hbm, ⟨58, _⟩ => ⟨S4x8192x768, .f32⟩
  | .hbm, ⟨59, _⟩ => ⟨S4x8192x768, .f32⟩
  | .hbm, ⟨60, _⟩ => ⟨S4x8192x768, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S4x8192x768, .f32⟩
  | .hbm, ⟨68, _⟩ => ⟨S4x8192x768, .f32⟩
  | .hbm, ⟨69, _⟩ => ⟨S4x8192x768, .f32⟩
  | .hbm, ⟨70, _⟩ => ⟨S_, .f32⟩
  | .hbm, ⟨71, _⟩ => ⟨S4x8192, .f32⟩
  | .hbm, ⟨72, _⟩ => ⟨S4x8192x1, .f32⟩
  | .hbm, ⟨73, _⟩ => ⟨S_, .f32⟩
  | .hbm, ⟨74, _⟩ => ⟨S4x8192x1, .f32⟩
  | .hbm, ⟨75, _⟩ => ⟨S4x8192x1, .f32⟩
  | .hbm, ⟨76, _⟩ => ⟨S4x8192x768, .f32⟩
  | .hbm, ⟨77, _⟩ => ⟨S4x8192x768, .f32⟩
  | .hbm, ⟨78, _⟩ => ⟨S_, .f32⟩
  | .hbm, ⟨79, _⟩ => ⟨S4x8192x1, .f32⟩
  | .hbm, ⟨80, _⟩ => ⟨S4x8192x1, .f32⟩
  | .hbm, ⟨81, _⟩ => ⟨S4x8192x1, .f32⟩
  | .hbm, ⟨82, _⟩ => ⟨S4x8192x768, .f32⟩
  | .hbm, ⟨83, _⟩ => ⟨S4x8192x768, .f32⟩
  | .hbm, ⟨84, _⟩ => ⟨S1x1x768, .f32⟩
  | .hbm, ⟨85, _⟩ => ⟨S4x8192x768, .f32⟩
  | .hbm, ⟨86, _⟩ => ⟨S4x8192x768, .f32⟩
  | .hbm, ⟨87, _⟩ => ⟨S1x1x768, .f32⟩
  | .hbm, ⟨88, _⟩ => ⟨S4x8192x768, .f32⟩
  | .hbm, ⟨89, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_v7 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v8 : Ref sig .tc := ⟨.hbm, 59, rfl⟩
abbrev main_v9 : Ref sig .tc := ⟨.hbm, 60, rfl⟩
abbrev main_cst : Ref sig .tc := ⟨.hbm, 61, rfl⟩
abbrev main_v10 : Ref sig .tc := ⟨.hbm, 62, rfl⟩
abbrev main_v11 : Ref sig .tc := ⟨.hbm, 63, rfl⟩
abbrev main_cst_1 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_cst_2 : Ref sig .tc := ⟨.hbm, 70, rfl⟩
abbrev main_v17 : Ref sig .tc := ⟨.hbm, 71, rfl⟩
abbrev main_v18 : Ref sig .tc := ⟨.hbm, 72, rfl⟩
abbrev main_cst_3 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_cst_4 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x768_0_1 : S4x8192.BroadcastsInDim S4x8192x768 (![0, 1] : Fin 2 → Fin S4x8192x768.rank)
  bcast_S_S4x8192x768 : S_.BroadcastsInDim S4x8192x768 (![] : Fin 0 → Fin S4x8192x768.rank)
  reducesTo_S4x8192x768_S4x8192_d2 : S4x8192x768.ReducesTo [2] S4x8192
  bcast_S4x8192x1_S4x8192x768_0_1_2 : S4x8192x1.BroadcastsInDim S4x8192x768 (![0, 1, 2] : Fin 3 → Fin S4x8192x768.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  gather_S2x768_S4x8192x1_S4x8192x768_2_0_n_n_0_2_1768_wf : GatherDims.WF S2x768 S4x8192x1 S4x8192x768 [2] [0] [] [0] [] 2 ![1, 768]
  gather_S8194x768_S4x8192x1_S4x8192x768_2_0_n_n_0_2_1768_wf : GatherDims.WF S8194x768 S4x8192x1 S4x8192x768 [2] [0] [] [0] [] 2 ![1, 768]

variable [Facts₀]

def gather_S2x768_S4x8192x1_S4x8192x768_2_0_n_n_0_2_1768 : GatherDims S2x768 S4x8192x1 S4x8192x768 where
  offsetDims := [2]
  collapsedSliceDims := [0]
  operandBatchingDims := []
  startIndicesBatchingDims := []
  startIndexMap := [0]
  indexVectorDim := 2
  sliceSizes := ![1, 768]
  wf := gather_S2x768_S4x8192x1_S4x8192x768_2_0_n_n_0_2_1768_wf
def gather_S8194x768_S4x8192x1_S4x8192x768_2_0_n_n_0_2_1768 : GatherDims S8194x768 S4x8192x1 S4x8192x768 where
  offsetDims := [2]
  collapsedSliceDims := [0]
  operandBatchingDims := []
  startIndicesBatchingDims := []
  startIndexMap := [0]
  indexVectorDim := 2
  sliceSizes := ![1, 768]
  wf := gather_S8194x768_S4x8192x1_S4x8192x768_2_0_n_n_0_2_1768_wf

class Facts : Prop extends Facts₀ where

variable [Facts]
-- ==== Proof.K.Frame0.lean ====
/-
  The data of the one pipelined launch: what the launch finds in each array, each window's
  block at a grid point, what the body leaves in the result's staging buffer as a function of the six input staging
  contents (four row-slab stores, one per batch entry), and the proof data over them.

  The position table is staged by TWO windows: one holds 1024 rows starting at row 1024·t, the other 8 rows starting at
  row 1024·(t + 1). Both are cut at the table's end (8194 rows), so only the part of a staging buffer that lies inside
  the table is named; the body reads rows 2‥1023 of the first and rows 0‥1 of the second, which always are.
-/
import proofs.«158010_g41644002902592_cont_8to1_b_1119_17_alg».proof.Proof.Gen.Kernel.Launch
import proofs.«158010_g41644002902592_cont_8to1_b_1119_17_alg».proof.Proof.Gen.Kernel.Skeleton
import proofs.«158010_g41644002902592_cont_8to1_b_1119_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core c's buffers when the launch is entered: after the two reshapes of the scale and shift vectors. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the two reshapes, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window w's block at point t, read off its array as the launch finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The filler past the table's end in the two cut windows' staging buffers: nothing reads it. -/
abbrev zfill (S : Shape) : S.Idx → Elt F .f32 := fun _ => Scalar.ofBits .f32 0#32

/-- The two position windows' staging contents on the part inside the table, filled out past it. -/
def pblkA (c : Dev nD) (t : Fin cfg0.N) : S1024x768.Idx → Elt F .f32 :=
  win0_1.fill (grid0.coords t) (zfill S1024x768) (iblk m c 1 t)
def pblkB (c : Dev nD) (t : Fin cfg0.N) : S8x768.Idx → Elt F .f32 :=
  win0_2.fill (grid0.coords t) (zfill S8x768) (iblk m c 2 t)

/-! ## The body's accesses -/

abbrev rA : Rect S1024x768 := Rect.unit (s := S1024x768) ![2, 0] S1022x768.size inb_S1024x768_S1022x768_2_0
abbrev rB : Rect S8x768 := Rect.unit (s := S8x768) ![0, 0] S2x768.size inb_S8x768_S2x768_0_0
abbrev rC : Rect S2x768 := Rect.unit (s := S2x768) ![0, 0] S1x768.size inb_S2x768_S1x768_0_0
abbrev rG : Rect S1x768 := Rect.unit (s := S1x768) ![0, 0] S1x768.size inb_S1x768_S1x768_0_0
abbrev rX0 : Rect S4x1024x768 := Rect.unit (s := S4x1024x768) ![0, 0, 0] S1x1024x768.size inb_S4x1024x768_S1x1024x768_0_0_0
abbrev rX1 : Rect S4x1024x768 := Rect.unit (s := S4x1024x768) ![1, 0, 0] S1x1024x768.size inb_S4x1024x768_S1x1024x768_1_0_0
abbrev rX2 : Rect S4x1024x768 := Rect.unit (s := S4x1024x768) ![2, 0, 0] S1x1024x768.size inb_S4x1024x768_S1x1024x768_2_0_0
abbrev rX3 : Rect S4x1024x768 := Rect.unit (s := S4x1024x768) ![3, 0, 0] S1x1024x768.size inb_S4x1024x768_S1x1024x768_3_0_0

/-! ## What the body leaves in the result's staging buffer -/

/-- The position rows plus the token-type row, shared by the four batch entries. -/
def bias (x1 : Vec F S1024x768 .f32) (x2 : Vec F S8x768 .f32) (x3 : Vec F S2x768 .f32) : FVec F S1024x768 .f32 :=
  k0_pay2 (View.ld x1 rA) (View.ld x2 rB) (View.ld x3 rC)

/-- The result's staging buffer after the body, from the six input staging contents: its four stores as pieces, last first. -/
def out0_6 (x0 : Vec F S4x1024x768 .f32) (x1 : Vec F S1024x768 .f32) (x2 : Vec F S8x768 .f32) (x3 : Vec F S2x768 .f32)
    (x4 : Vec F S1x768 .f32) (x5 : Vec F S1x768 .f32) : Vec F S4x1024x768 .f32 :=
  View.canon [⟨rX3, k0_pay1 (k0_pay11 (bias x1 x2 x3) (View.ld x0 rX3)) (k0_pay12 (bias x1 x2 x3) (View.ld x0 rX3)) (View.ld x4 rG) (View.ld x5 rG)⟩,
    ⟨rX2, k0_pay8 (k0_pay5 (bias x1 x2 x3) (View.ld x0 rX2)) (k0_pay6 (bias x1 x2 x3) (View.ld x0 rX2)) (k0_pay7 (F := F)) (View.ld x4 rG) (View.ld x5 rG)⟩,
    ⟨rX1, k0_pay4 (bias x1 x2 x3) (View.ld x0 rX1) (View.ld x4 rG) (View.ld x5 rG)⟩,
    ⟨rX0, k0_pay3 (View.ld x1 rA) (View.ld x2 rB) (View.ld x3 rC) (View.ld x0 rX0) (View.ld x4 rG) (View.ld x5 rG)⟩]

/-- The four slabs tile the buffer, so they cover it. -/
theorem cover0_6 (p3 p2 p1 p0 : Vec F S1x1024x768 .f32) (y : S4x1024x768.Idx) :
    ∃ pc ∈ ([⟨rX3, p3⟩, ⟨rX2, p2⟩, ⟨rX1, p1⟩, ⟨rX0, p0⟩] : List (View.Piece (Elt F) S4x1024x768 .f32)), y ∈ pc.1.set :=
  View.cover_of_tiledL [⟨rX3, p3⟩, ⟨rX2, p2⟩, ⟨rX1, p1⟩, ⟨rX0, p0⟩] S1x1024x768.size (by rfl) y

/-! ## The proof data -/

/-- The proof data on core c: the arrays as the launch finds them; after the body each input's staging buffer at its
    block (the two cut windows' filled out) and the result's at the body's function of them; no invariant; nothing
    owed; the position table's two windows hold a half share each, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => pblkA m c t
    | ⟨2, _⟩ => pblkB m c t
    | ⟨3, _⟩ => iblk m c 3 t
    | ⟨4, _⟩ => iblk m c 4 t
    | ⟨5, _⟩ => iblk m c 5 t
    | ⟨6, _⟩ => out0_6 (iblk m c 0 t) (pblkA m c t) (pblkB m c t) (iblk m c 3 t) (iblk m c 4 t) (iblk m c 5 t)
  Φ _ := iprop(emp)
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = pblkA m c t := by dsimp only [dats]
theorem after0_2 (c : Dev nD) (t : Fin cfg0.N) : (dats m 0 c).after 2 t = pblkB m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (iblk m c 0 t) (pblkA m c t) (pblkB m c t) (iblk m c 3 t) (iblk m c 4 t) (iblk m c 5 t) := by dsimp only [dats]

end Cert.Kernel.Fr

end
-- ==== Proof.K.Body.lean ====
import proofs.«158010_g41644002902592_cont_8to1_b_1119_17_alg».proof.Proof.K.Frame0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body on whole staging memrefs, the six inputs' at read contents and the result's at anything, runs to the
    continuation holding the inputs' as they were and the result's at the four-slab function of them. -/
theorem sound_kernel (c : Dev nD) (E : Set ℕ) (i : grid0.Coords)
    (arg1 : Memref sig .tc .vmem S4x1024x768 .f32) (harg1 : arg1.IsWhole) (arg2 : Memref sig .tc .vmem S1024x768 .f32) (harg2 : arg2.IsWhole)
    (arg3 : Memref sig .tc .vmem S8x768 .f32) (harg3 : arg3.IsWhole) (arg4 : Memref sig .tc .vmem S2x768 .f32) (harg4 : arg4.IsWhole)
    (arg5 : Memref sig .tc .vmem S1x768 .f32) (harg5 : arg5.IsWhole) (arg6 : Memref sig .tc .vmem S1x768 .f32) (harg6 : arg6.IsWhole)
    (arg7 : Memref sig .tc .vmem S4x1024x768 .f32) (harg7 : arg7.IsWhole)
    (x0 : Vec F S4x1024x768 .f32) (x1 : Vec F S1024x768 .f32) (x2 : Vec F S8x768 .f32) (x3 : Vec F S2x768 .f32)
    (x4 : Vec F S1x768 .f32) (x5 : Vec F S1x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__embed_ln_kernel i arg1 harg1 arg2 harg2 arg3 harg3 arg4 harg4 arg5 harg5 arg6 harg6 arg7 harg7) K := by
  simp only [cc0__embed_ln_kernel_eq_skeleton]; unfold cc0__embed_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold out0_6 bias
  exact View.read_writes_eq_canon _ _ _ (cover0_6 _ _ _ _)

end Cert.Kernel.Fr

end
-- ==== Proof.K.Obligation.lean ====
import proofs.«158010_g41644002902592_cont_8to1_b_1119_17_alg».proof.Proof.K.Frame0
import proofs.«158010_g41644002902592_cont_8to1_b_1119_17_alg».proof.Proof.K.Body
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each staging buffer -/

/-- The four uncut inputs hold their block at every point, fetched there or not: unfetched, the block index has not
    moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-- The two position windows are fetched at every point: the buffer holds the block on the part inside the table and
    whatever it held elsewhere. -/
theorem before0_1 (c : Dev nD) (t : Fin cfg0.N) (d) :
    (dats m 0 c).before 1 t d = win0_1.fill (grid0.coords t) d (iblk m c 1 t) := by
  rw [(dats m 0 c).before_fetched 1 t (fetch0_1 t) d]; unfold Dat.fetched Dat.blockOf iblk; rw [A_eq]; try rfl
theorem before0_2 (c : Dev nD) (t : Fin cfg0.N) (d) :
    (dats m 0 c).before 2 t d = win0_2.fill (grid0.coords t) d (iblk m c 2 t) := by
  rw [(dats m 0 c).before_fetched 2 t (fetch0_2 t) d]; unfold Dat.fetched Dat.blockOf iblk; rw [A_eq]; try rfl

/-- The result's buffer is written back at every point, so the body always finds it at contents nothing names. -/
theorem before0_6 (c : Dev nD) (t : Fin cfg0.N) (d) : (dats m 0 c).before 6 t d = d :=
  (dats m 0 c).before_out_reset 6 rfl t (by
    by_cases h0 : t.val = 0
    · exact .inl h0
    · exact .inr ⟨h0, flush0_6 _⟩) d

/-! ## The body reads the two position buffers only inside the table -/

/-- At every grid point the first position window's transfers move all 1024 rows of its block (the block lies
    wholly inside the 8194-row table), -/
theorem xsize0_1 : ∀ t : Fin grid0.N, win0_1.xsize (grid0.coords t) 0 = 1024 ∧ win0_1.xsize (grid0.coords t) 1 = 768 := by
  decide +kernel
/-- and the second's at least the first two rows of its block (all eight up to the last point, where rows 8192
    and 8193 are the table's last), every lane of each. -/
theorem xsize0_2 : ∀ t : Fin grid0.N, 2 ≤ win0_2.xsize (grid0.coords t) 0 ∧ win0_2.xsize (grid0.coords t) 1 = 768 := by
  decide +kernel

/-- Rows 2‥1023 of the first position buffer are moved rows, -/
theorem movedA (t : Fin cfg0.N) (x : rA.shape.Idx) : win0_1.moved (grid0.coords t) (rA.idx x) = true :=
  (win0_1.moved_iff _ _).mpr fun a => by
    have h := xsize0_1 t
    match a with
    | ⟨0, _⟩ =>
      have hx : (x 0).val < 1022 := (x 0).isLt
      show 2 + 1 * (x 0).val < win0_1.xsize (grid0.coords t) 0
      rw [h.1]; omega
    | ⟨1, _⟩ =>
      have hx : (x 1).val < 768 := (x 1).isLt
      show 0 + 1 * (x 1).val < win0_1.xsize (grid0.coords t) 1
      rw [h.2]; omega
/-- and rows 0‥1 of the second's. -/
theorem movedB (t : Fin cfg0.N) (x : rB.shape.Idx) : win0_2.moved (grid0.coords t) (rB.idx x) = true :=
  (win0_2.moved_iff _ _).mpr fun a => by
    have h := xsize0_2 t
    match a with
    | ⟨0, _⟩ =>
      have hx : (x 0).val < 2 := (x 0).isLt
      show 0 + 1 * (x 0).val < win0_2.xsize (grid0.coords t) 0
      omega
    | ⟨1, _⟩ =>
      have hx : (x 1).val < 768 := (x 1).isLt
      show 0 + 1 * (x 1).val < win0_2.xsize (grid0.coords t) 1
      rw [h.2]; omega

/-- So what the body loads of either buffer does not depend on what fills the buffer past the table's end. -/
theorem ldA_fill (t : Fin cfg0.N) (d d' : S1024x768.Idx → Elt F .f32) (g : (win0_1.xblock (grid0.coords t)).Idx → Elt F .f32) :
    View.ld (Val := Elt F) (win0_1.fill (grid0.coords t) d g) rA = View.ld (Val := Elt F) (win0_1.fill (grid0.coords t) d' g) rA := by
  funext x
  show win0_1.fill (grid0.coords t) d g (rA.idx x) = win0_1.fill (grid0.coords t) d' g (rA.idx x)
  unfold Window.fill; rw [dif_pos (movedA t x), dif_pos (movedA t x)]
theorem ldB_fill (t : Fin cfg0.N) (d d' : S8x768.Idx → Elt F .f32) (g : (win0_2.xblock (grid0.coords t)).Idx → Elt F .f32) :
    View.ld (Val := Elt F) (win0_2.fill (grid0.coords t) d g) rB = View.ld (Val := Elt F) (win0_2.fill (grid0.coords t) d' g) rB := by
  funext x
  show win0_2.fill (grid0.coords t) d g (rB.idx x) = win0_2.fill (grid0.coords t) d' g (rB.idx x)
  unfold Window.fill; rw [dif_pos (movedB t x), dif_pos (movedB t x)]

/-- The result's buffer after the body is a function of the loads of the two position buffers alone. -/
theorem out0_6_congr (x0 : Vec F S4x1024x768 .f32) (x1 x1' : Vec F S1024x768 .f32) (x2 x2' : Vec F S8x768 .f32) (x3 : Vec F S2x768 .f32)
    (x4 x5 : Vec F S1x768 .f32) (h1 : View.ld x1 rA = View.ld x1' rA) (h2 : View.ld x2 rB = View.ld x2' rB) :
    out0_6 x0 x1 x2 x3 x4 x5 = out0_6 x0 x1' x2' x3 x4 x5 := by
  unfold out0_6 bias; rw [h1, h2]

/-! ## The body obligation -/

/-- The body at any point: the uncut inputs' buffers hold their blocks, the two position buffers theirs inside the
    table and anything past it, the result's anything; the body leaves the inputs as they were — which for the two
    position buffers is the block inside the table, all that is stated of them — and the result's buffer at the
    function of the blocks, the same whatever lay past the table's end. The invariant is empty and nothing is owed
    at either position. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare
                (win0_1.fill (grid0.coords t) d (win0_1.cut (grid0.coords t) ((dats m 0 c).after 1 t))))
            ∗ (∃ d, owns (c : Thread nD τ) (st0_2 t) fullShare
                (win0_2.fill (grid0.coords t) d (win0_2.cut (grid0.coords t) ((dats m 0 c).after 2 t))))
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t))) := by
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before0_4 m c t d4,
    before0_5 m c t d5, before0_6 m c t d6]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (iblk m c 0 t) (win0_1.fill (grid0.coords t) d1 (iblk m c 1 t)) (win0_2.fill (grid0.coords t) d2 (iblk m c 2 t))
    (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]
  · iexists d1
    rw [show win0_1.cut (grid0.coords t) (pblkA m c t) = iblk m c 1 t from win0_1.cut_fill _ _ _]
    iexact H1
  isplitl [H2]
  · iexists d2
    rw [show win0_2.cut (grid0.coords t) (pblkB m c t) = iblk m c 2 t from win0_2.cut_fill _ _ _]
    iexact H2
  isplitl [H3]; · iexact H3
  isplitl [H4]; · iexact H4
  isplitl [H5]; · iexact H5
  rw [show out0_6 (iblk m c 0 t) (pblkA m c t) (pblkB m c t) (iblk m c 3 t) (iblk m c 4 t) (iblk m c 5 t)
      = out0_6 (iblk m c 0 t) (win0_1.fill (grid0.coords t) d1 (iblk m c 1 t)) (win0_2.fill (grid0.coords t) d2 (iblk m c 2 t))
          (iblk m c 3 t) (iblk m c 4 t) (iblk m c 5 t) from
    out0_6_congr (iblk m c 0 t) (pblkA m c t) (win0_1.fill (grid0.coords t) d1 (iblk m c 1 t))
      (pblkB m c t) (win0_2.fill (grid0.coords t) d2 (iblk m c 2 t)) (iblk m c 3 t) (iblk m c 4 t) (iblk m c 5 t)
      (ldA_fill t (zfill S1024x768) d1 (iblk m c 1 t)) (ldB_fill t (zfill S8x768) d2 (iblk m c 2 t))]
  iexact H6

/-- The body obligation at every grid point, in the form that states a cut window's buffer only inside its array. -/
theorem body_obligation (c : Dev nD) : BodyObligationLoose (dats (F := F) m 0 c) (defs₀ (F := F)) Variants.none () Set.univ := fun t => by
  rw [bigSep_W0, bigSep_W0]
  exact sound_body m c t

end Cert.Kernel.Fr

end
-- ==== Proof.K.Launch.lean ====
import proofs.«158010_g41644002902592_cont_8to1_b_1119_17_alg».proof.Proof.K.Frame0
import proofs.«158010_g41644002902592_cont_8to1_b_1119_17_alg».proof.Proof.K.Obligation
import Idealize.ShloMosaic.Lib.Pipeline.Frame
import Idealize.ShloMosaic.Lib.Pipeline.Kit
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the launch's entry -/

open Idealize.SL.BI (bigSep_eq_bigSepL_of_eq bigSepL)

/-- One window's array in the proof data's arrays at entry: the array is a whole buffer, so this is the buffer behind it,
    whole, at the window's share, holding what the launch finds there. -/
theorem win_pt (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = ((c.tc : Thread nD τ).loc (Pipeline.arrRef spec0 w) ↦{q} V m c (Pipeline.arrRef spec0 w)) := by
  rw [(Gen.arr_whole0 w).set_eq_univ, hq]; rfl

/-- The distinct buffers behind the windows' arrays, each held whole, make the proof data's arrays at entry: six buffers
    for seven windows, the position table's whole share dealt in two halves to the two windows that stage it. -/
theorem arrays_split0 (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg2, main_arg1, main_v0, main_v1, main_v2] (by decide) (by decide), Gen.bigSep_W0]
  rw [win_pt m c 0 fullShare rfl, win_pt m c 1 fullShare.left rfl, win_pt m c 2 fullShare.right rfl, win_pt m c 3 fullShare rfl,
    win_pt m c 4 fullShare rfl, win_pt m c 5 fullShare rfl, win_pt m c 6 fullShare rfl]
  change (iprop((((c.tc : Thread nD τ).loc main_arg0) ↦{fullShare} V m c main_arg0) ∗ (((c.tc : Thread nD τ).loc main_arg2) ↦{fullShare} V m c main_arg2)
      ∗ (((c.tc : Thread nD τ).loc main_arg1) ↦{fullShare} V m c main_arg1) ∗ (((c.tc : Thread nD τ).loc main_v0) ↦{fullShare} V m c main_v0)
      ∗ (((c.tc : Thread nD τ).loc main_v1) ↦{fullShare} V m c main_v1) ∗ (((c.tc : Thread nD τ).loc main_v2) ↦{fullShare} V m c main_v2)) : sProp 𝕄)
    ⊢ (iprop((((c.tc : Thread nD τ).loc main_arg0) ↦{fullShare} V m c main_arg0) ∗ (((c.tc : Thread nD τ).loc main_arg2) ↦{fullShare.left} V m c main_arg2)
      ∗ (((c.tc : Thread nD τ).loc main_arg2) ↦{fullShare.right} V m c main_arg2)
      ∗ (((c.tc : Thread nD τ).loc main_arg1) ↦{fullShare} V m c main_arg1) ∗ (((c.tc : Thread nD τ).loc main_v0) ↦{fullShare} V m c main_v0)
      ∗ (((c.tc : Thread nD τ).loc main_v1) ↦{fullShare} V m c main_v1) ∗ (((c.tc : Thread nD τ).loc main_v2) ↦{fullShare} V m c main_v2)) : sProp 𝕄)
  iintro ⟨H0, H2, H1, H3, H4, H5⟩
  ihave H2 := (pointsTo_share (PosShare.mem_left_op_right fullShare)).1 $$ H2
  icases H2 with ⟨H2a, H2b⟩
  isplitl [H0]; · iexact H0
  isplitl [H2a]; · iexact H2a
  isplitl [H2b]; · iexact H2b
  isplitl [H1]; · iexact H1
  isplitl [H3]; · iexact H3
  isplitl [H4]; · iexact H4
  iexact H5

/-! ## The launch -/

set_option backward.isDefEq.respectTransparency.types false in
/-- From any memory with zero counters every weakly fair execution terminates, every array a window stages ends at what
    the write-backs leave, and every other buffer of the program as the launch found it. -/
theorem run_main : θ_run defs (onTc (τ := τ) (main (F := F))) ⟨m, fun _ => 0, ρ⟩ (Pipeline.FramePost cfgs (dats m) 0 (V m)) :=
  Pipeline.θ_run_region_noSem_shared cfgs (dats m) () Gen.cellOf_inj (0 : Fin 1) Gen.winFacts₀0 emb₁ defs₀ Variants.none m ρ main
    (hbody := fun c => body_obligation m c)
    (hne := Gen.block_pos0) (harr := Gen.arr_whole0) (hstage := Gen.stage_whole0)
    (howed := fun _ _ => rfl)
    (u₀ := initOf (Pipeline.cells cfgs Gen.cellOf_inj) (Pipeline.launchToks cfgs Gen.cellOf_inj)) (hu₀ := BI.Entails.refl _)
    (V := V m) (hmain := hmain m Variants.none)
    (hsplit := fun c => arrays_split0 m c)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The run read at the result and the arguments -/

/-- No reshape before the launch writes argument 0: the launch finds it as the run began. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- No reshape before the launch writes argument 1: the launch finds it as the run began. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- No reshape before the launch writes argument 2: the launch finds it as the run began. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- No reshape before the launch writes argument 3: the launch finds it as the run began. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- No reshape before the launch writes argument 4: the launch finds it as the run began. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- The run read at the result and the five arguments: the result at what the write-backs leave, the arguments unchanged. -/
theorem run_out : θ_run defs (onTc (τ := τ) (main (F := F))) ⟨m, fun _ => 0, ρ⟩ (fun r => ∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1 6,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel.Fr

end
-- ==== Proof.KI.Frame0.lean ====
/-
  The data of the one pipelined launch: what the launch finds in each array, each window's
  block at a grid point, what the body leaves in the result's staging buffer as a function of the six input staging
  contents (four row-slab stores, one per batch entry), and the proof data over them.

  The position table is staged by TWO windows: one holds 1024 rows starting at row 1024·t, the other 8 rows starting at
  row 1024·(t + 1). Both are cut at the table's end (8194 rows), so only the part of a staging buffer that lies inside
  the table is named; the body reads rows 2‥1023 of the first and rows 0‥1 of the second, which always are.
-/
import proofs.«158010_g41644002902592_cont_8to1_b_1119_17_alg».proof.Proof.Gen.KernelIdeal.Launch
import proofs.«158010_g41644002902592_cont_8to1_b_1119_17_alg».proof.Proof.Gen.KernelIdeal.Skeleton
import proofs.«158010_g41644002902592_cont_8to1_b_1119_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core c's buffers when the launch is entered: after the two reshapes of the scale and shift vectors. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the two reshapes, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window w's block at point t, read off its array as the launch finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The filler past the table's end in the two cut windows' staging buffers: nothing reads it. -/
abbrev zfill (S : Shape) : S.Idx → Elt F .f32 := fun _ => Scalar.ofBits .f32 0#32

/-- The two position windows' staging contents on the part inside the table, filled out past it. -/
def pblkA (c : Dev nD) (t : Fin cfg0.N) : S1024x768.Idx → Elt F .f32 :=
  win0_1.fill (grid0.coords t) (zfill S1024x768) (iblk m c 1 t)
def pblkB (c : Dev nD) (t : Fin cfg0.N) : S8x768.Idx → Elt F .f32 :=
  win0_2.fill (grid0.coords t) (zfill S8x768) (iblk m c 2 t)

/-! ## The body's accesses -/

abbrev rA : Rect S1024x768 := Rect.unit (s := S1024x768) ![2, 0] S1022x768.size inb_S1024x768_S1022x768_2_0
abbrev rB : Rect S8x768 := Rect.unit (s := S8x768) ![0, 0] S2x768.size inb_S8x768_S2x768_0_0
abbrev rC : Rect S2x768 := Rect.unit (s := S2x768) ![0, 0] S1x768.size inb_S2x768_S1x768_0_0
abbrev rG : Rect S1x768 := Rect.unit (s := S1x768) ![0, 0] S1x768.size inb_S1x768_S1x768_0_0
abbrev rX0 : Rect S4x1024x768 := Rect.unit (s := S4x1024x768) ![0, 0, 0] S1x1024x768.size inb_S4x1024x768_S1x1024x768_0_0_0
abbrev rX1 : Rect S4x1024x768 := Rect.unit (s := S4x1024x768) ![1, 0, 0] S1x1024x768.size inb_S4x1024x768_S1x1024x768_1_0_0
abbrev rX2 : Rect S4x1024x768 := Rect.unit (s := S4x1024x768) ![2, 0, 0] S1x1024x768.size inb_S4x1024x768_S1x1024x768_2_0_0
abbrev rX3 : Rect S4x1024x768 := Rect.unit (s := S4x1024x768) ![3, 0, 0] S1x1024x768.size inb_S4x1024x768_S1x1024x768_3_0_0

/-! ## What the body leaves in the result's staging buffer -/

/-- The position rows plus the token-type row, shared by the four batch entries. -/
def bias (x1 : Vec F S1024x768 .f32) (x2 : Vec F S8x768 .f32) (x3 : Vec F S2x768 .f32) : FVec F S1024x768 .f32 :=
  k0_pay2 (View.ld x1 rA) (View.ld x2 rB) (View.ld x3 rC)

/-- The result's staging buffer after the body, from the six input staging contents: its four stores as pieces, last first. -/
def out0_6 (x0 : Vec F S4x1024x768 .f32) (x1 : Vec F S1024x768 .f32) (x2 : Vec F S8x768 .f32) (x3 : Vec F S2x768 .f32)
    (x4 : Vec F S1x768 .f32) (x5 : Vec F S1x768 .f32) : Vec F S4x1024x768 .f32 :=
  View.canon [⟨rX3, k0_pay1 (k0_pay11 (bias x1 x2 x3) (View.ld x0 rX3)) (k0_pay12 (bias x1 x2 x3) (View.ld x0 rX3)) (View.ld x4 rG) (View.ld x5 rG)⟩,
    ⟨rX2, k0_pay8 (k0_pay5 (bias x1 x2 x3) (View.ld x0 rX2)) (k0_pay6 (bias x1 x2 x3) (View.ld x0 rX2)) (k0_pay7 (F := F)) (View.ld x4 rG) (View.ld x5 rG)⟩,
    ⟨rX1, k0_pay4 (bias x1 x2 x3) (View.ld x0 rX1) (View.ld x4 rG) (View.ld x5 rG)⟩,
    ⟨rX0, k0_pay3 (View.ld x1 rA) (View.ld x2 rB) (View.ld x3 rC) (View.ld x0 rX0) (View.ld x4 rG) (View.ld x5 rG)⟩]

/-- The four slabs tile the buffer, so they cover it. -/
theorem cover0_6 (p3 p2 p1 p0 : Vec F S1x1024x768 .f32) (y : S4x1024x768.Idx) :
    ∃ pc ∈ ([⟨rX3, p3⟩, ⟨rX2, p2⟩, ⟨rX1, p1⟩, ⟨rX0, p0⟩] : List (View.Piece (Elt F) S4x1024x768 .f32)), y ∈ pc.1.set :=
  View.cover_of_tiledL [⟨rX3, p3⟩, ⟨rX2, p2⟩, ⟨rX1, p1⟩, ⟨rX0, p0⟩] S1x1024x768.size (by rfl) y

/-! ## The proof data -/

/-- The proof data on core c: the arrays as the launch finds them; after the body each input's staging buffer at its
    block (the two cut windows' filled out) and the result's at the body's function of them; no invariant; nothing
    owed; the position table's two windows hold a half share each, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => pblkA m c t
    | ⟨2, _⟩ => pblkB m c t
    | ⟨3, _⟩ => iblk m c 3 t
    | ⟨4, _⟩ => iblk m c 4 t
    | ⟨5, _⟩ => iblk m c 5 t
    | ⟨6, _⟩ => out0_6 (iblk m c 0 t) (pblkA m c t) (pblkB m c t) (iblk m c 3 t) (iblk m c 4 t) (iblk m c 5 t)
  Φ _ := iprop(emp)
  q w := match w with
    | ⟨1, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = pblkA m c t := by dsimp only [dats]
theorem after0_2 (c : Dev nD) (t : Fin cfg0.N) : (dats m 0 c).after 2 t = pblkB m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (iblk m c 0 t) (pblkA m c t) (pblkB m c t) (iblk m c 3 t) (iblk m c 4 t) (iblk m c 5 t) := by dsimp only [dats]

end Cert.KernelIdeal.Fr

end
-- ==== Proof.KI.Body.lean ====
import proofs.«158010_g41644002902592_cont_8to1_b_1119_17_alg».proof.Proof.KI.Frame0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body on whole staging memrefs, the six inputs' at read contents and the result's at anything, runs to the
    continuation holding the inputs' as they were and the result's at the four-slab function of them. -/
theorem sound_kernel (c : Dev nD) (E : Set ℕ) (i : grid0.Coords)
    (arg1 : Memref sig .tc .vmem S4x1024x768 .f32) (harg1 : arg1.IsWhole) (arg2 : Memref sig .tc .vmem S1024x768 .f32) (harg2 : arg2.IsWhole)
    (arg3 : Memref sig .tc .vmem S8x768 .f32) (harg3 : arg3.IsWhole) (arg4 : Memref sig .tc .vmem S2x768 .f32) (harg4 : arg4.IsWhole)
    (arg5 : Memref sig .tc .vmem S1x768 .f32) (harg5 : arg5.IsWhole) (arg6 : Memref sig .tc .vmem S1x768 .f32) (harg6 : arg6.IsWhole)
    (arg7 : Memref sig .tc .vmem S4x1024x768 .f32) (harg7 : arg7.IsWhole)
    (x0 : Vec F S4x1024x768 .f32) (x1 : Vec F S1024x768 .f32) (x2 : Vec F S8x768 .f32) (x3 : Vec F S2x768 .f32)
    (x4 : Vec F S1x768 .f32) (x5 : Vec F S1x768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__embed_ln_kernel i arg1 harg1 arg2 harg2 arg3 harg3 arg4 harg4 arg5 harg5 arg6 harg6 arg7 harg7) K := by
  simp only [cc0__embed_ln_kernel_eq_skeleton]; unfold cc0__embed_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  unfold out0_6 bias
  exact View.read_writes_eq_canon _ _ _ (cover0_6 _ _ _ _)

end Cert.KernelIdeal.Fr

end
-- ==== Proof.KI.Obligation.lean ====
import proofs.«158010_g41644002902592_cont_8to1_b_1119_17_alg».proof.Proof.KI.Frame0
import proofs.«158010_g41644002902592_cont_8to1_b_1119_17_alg».proof.Proof.KI.Body
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in each staging buffer -/

/-- The four uncut inputs hold their block at every point, fetched there or not: unfetched, the block index has not
    moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-- The two position windows are fetched at every point: the buffer holds the block on the part inside the table and
    whatever it held elsewhere. -/
theorem before0_1 (c : Dev nD) (t : Fin cfg0.N) (d) :
    (dats m 0 c).before 1 t d = win0_1.fill (grid0.coords t) d (iblk m c 1 t) := by
  rw [(dats m 0 c).before_fetched 1 t (fetch0_1 t) d]; unfold Dat.fetched Dat.blockOf iblk; rw [A_eq]; try rfl
theorem before0_2 (c : Dev nD) (t : Fin cfg0.N) (d) :
    (dats m 0 c).before 2 t d = win0_2.fill (grid0.coords t) d (iblk m c 2 t) := by
  rw [(dats m 0 c).before_fetched 2 t (fetch0_2 t) d]; unfold Dat.fetched Dat.blockOf iblk; rw [A_eq]; try rfl

/-- The result's buffer is written back at every point, so the body always finds it at contents nothing names. -/
theorem before0_6 (c : Dev nD) (t : Fin cfg0.N) (d) : (dats m 0 c).before 6 t d = d :=
  (dats m 0 c).before_out_reset 6 rfl t (by
    by_cases h0 : t.val = 0
    · exact .inl h0
    · exact .inr ⟨h0, flush0_6 _⟩) d

/-! ## The body reads the two position buffers only inside the table -/

/-- At every grid point the first position window's transfers move all 1024 rows of its block (the block lies
    wholly inside the 8194-row table), -/
theorem xsize0_1 : ∀ t : Fin grid0.N, win0_1.xsize (grid0.coords t) 0 = 1024 ∧ win0_1.xsize (grid0.coords t) 1 = 768 := by
  decide +kernel
/-- and the second's at least the first two rows of its block (all eight up to the last point, where rows 8192
    and 8193 are the table's last), every lane of each. -/
theorem xsize0_2 : ∀ t : Fin grid0.N, 2 ≤ win0_2.xsize (grid0.coords t) 0 ∧ win0_2.xsize (grid0.coords t) 1 = 768 := by
  decide +kernel

/-- Rows 2‥1023 of the first position buffer are moved rows, -/
theorem movedA (t : Fin cfg0.N) (x : rA.shape.Idx) : win0_1.moved (grid0.coords t) (rA.idx x) = true :=
  (win0_1.moved_iff _ _).mpr fun a => by
    have h := xsize0_1 t
    match a with
    | ⟨0, _⟩ =>
      have hx : (x 0).val < 1022 := (x 0).isLt
      show 2 + 1 * (x 0).val < win0_1.xsize (grid0.coords t) 0
      rw [h.1]; omega
    | ⟨1, _⟩ =>
      have hx : (x 1).val < 768 := (x 1).isLt
      show 0 + 1 * (x 1).val < win0_1.xsize (grid0.coords t) 1
      rw [h.2]; omega
/-- and rows 0‥1 of the second's. -/
theorem movedB (t : Fin cfg0.N) (x : rB.shape.Idx) : win0_2.moved (grid0.coords t) (rB.idx x) = true :=
  (win0_2.moved_iff _ _).mpr fun a => by
    have h := xsize0_2 t
    match a with
    | ⟨0, _⟩ =>
      have hx : (x 0).val < 2 := (x 0).isLt
      show 0 + 1 * (x 0).val < win0_2.xsize (grid0.coords t) 0
      omega
    | ⟨1, _⟩ =>
      have hx : (x 1).val < 768 := (x 1).isLt
      show 0 + 1 * (x 1).val < win0_2.xsize (grid0.coords t) 1
      rw [h.2]; omega

/-- So what the body loads of either buffer does not depend on what fills the buffer past the table's end. -/
theorem ldA_fill (t : Fin cfg0.N) (d d' : S1024x768.Idx → Elt F .f32) (g : (win0_1.xblock (grid0.coords t)).Idx → Elt F .f32) :
    View.ld (Val := Elt F) (win0_1.fill (grid0.coords t) d g) rA = View.ld (Val := Elt F) (win0_1.fill (grid0.coords t) d' g) rA := by
  funext x
  show win0_1.fill (grid0.coords t) d g (rA.idx x) = win0_1.fill (grid0.coords t) d' g (rA.idx x)
  unfold Window.fill; rw [dif_pos (movedA t x), dif_pos (movedA t x)]
theorem ldB_fill (t : Fin cfg0.N) (d d' : S8x768.Idx → Elt F .f32) (g : (win0_2.xblock (grid0.coords t)).Idx → Elt F .f32) :
    View.ld (Val := Elt F) (win0_2.fill (grid0.coords t) d g) rB = View.ld (Val := Elt F) (win0_2.fill (grid0.coords t) d' g) rB := by
  funext x
  show win0_2.fill (grid0.coords t) d g (rB.idx x) = win0_2.fill (grid0.coords t) d' g (rB.idx x)
  unfold Window.fill; rw [dif_pos (movedB t x), dif_pos (movedB t x)]

/-- The result's buffer after the body is a function of the loads of the two position buffers alone. -/
theorem out0_6_congr (x0 : Vec F S4x1024x768 .f32) (x1 x1' : Vec F S1024x768 .f32) (x2 x2' : Vec F S8x768 .f32) (x3 : Vec F S2x768 .f32)
    (x4 x5 : Vec F S1x768 .f32) (h1 : View.ld x1 rA = View.ld x1' rA) (h2 : View.ld x2 rB = View.ld x2' rB) :
    out0_6 x0 x1 x2 x3 x4 x5 = out0_6 x0 x1' x2' x3 x4 x5 := by
  unfold out0_6 bias; rw [h1, h2]

/-! ## The body obligation -/

/-- The body at any point: the uncut inputs' buffers hold their blocks, the two position buffers theirs inside the
    table and anything past it, the result's anything; the body leaves the inputs as they were — which for the two
    position buffers is the block inside the table, all that is stated of them — and the result's buffer at the
    function of the blocks, the same whatever lay past the table's end. The invariant is empty and nothing is owed
    at either position. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare
                (win0_1.fill (grid0.coords t) d (win0_1.cut (grid0.coords t) ((dats m 0 c).after 1 t))))
            ∗ (∃ d, owns (c : Thread nD τ) (st0_2 t) fullShare
                (win0_2.fill (grid0.coords t) d (win0_2.cut (grid0.coords t) ((dats m 0 c).after 2 t))))
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t))) := by
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0_0 m c t d0, before0_1 m c t d1, before0_2 m c t d2, before0_3 m c t d3, before0_4 m c t d4,
    before0_5 m c t d5, before0_6 m c t d6]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (iblk m c 0 t) (win0_1.fill (grid0.coords t) d1 (iblk m c 1 t)) (win0_2.fill (grid0.coords t) d2 (iblk m c 2 t))
    (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]
  · iexists d1
    rw [show win0_1.cut (grid0.coords t) (pblkA m c t) = iblk m c 1 t from win0_1.cut_fill _ _ _]
    iexact H1
  isplitl [H2]
  · iexists d2
    rw [show win0_2.cut (grid0.coords t) (pblkB m c t) = iblk m c 2 t from win0_2.cut_fill _ _ _]
    iexact H2
  isplitl [H3]; · iexact H3
  isplitl [H4]; · iexact H4
  isplitl [H5]; · iexact H5
  rw [show out0_6 (iblk m c 0 t) (pblkA m c t) (pblkB m c t) (iblk m c 3 t) (iblk m c 4 t) (iblk m c 5 t)
      = out0_6 (iblk m c 0 t) (win0_1.fill (grid0.coords t) d1 (iblk m c 1 t)) (win0_2.fill (grid0.coords t) d2 (iblk m c 2 t))
          (iblk m c 3 t) (iblk m c 4 t) (iblk m c 5 t) from
    out0_6_congr (iblk m c 0 t) (pblkA m c t) (win0_1.fill (grid0.coords t) d1 (iblk m c 1 t))
      (pblkB m c t) (win0_2.fill (grid0.coords t) d2 (iblk m c 2 t)) (iblk m c 3 t) (iblk m c 4 t) (iblk m c 5 t)
      (ldA_fill t (zfill S1024x768) d1 (iblk m c 1 t)) (ldB_fill t (zfill S8x768) d2 (iblk m c 2 t))]
  iexact H6

/-- The body obligation at every grid point, in the form that states a cut window's buffer only inside its array. -/
theorem body_obligation (c : Dev nD) : BodyObligationLoose (dats (F := F) m 0 c) (defs₀ (F := F)) Variants.none () Set.univ := fun t => by
  rw [bigSep_W0, bigSep_W0]
  exact sound_body m c t

end Cert.KernelIdeal.Fr

end
-- ==== Proof.KI.Launch.lean ====
import proofs.«158010_g41644002902592_cont_8to1_b_1119_17_alg».proof.Proof.KI.Frame0
import proofs.«158010_g41644002902592_cont_8to1_b_1119_17_alg».proof.Proof.KI.Obligation
import Idealize.ShloMosaic.Lib.Pipeline.Frame
import Idealize.ShloMosaic.Lib.Pipeline.Kit
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the launch's entry -/

open Idealize.SL.BI (bigSep_eq_bigSepL_of_eq bigSepL)

/-- One window's array in the proof data's arrays at entry: the array is a whole buffer, so this is the buffer behind it,
    whole, at the window's share, holding what the launch finds there. -/
theorem win_pt (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = ((c.tc : Thread nD τ).loc (Pipeline.arrRef spec0 w) ↦{q} V m c (Pipeline.arrRef spec0 w)) := by
  rw [(Gen.arr_whole0 w).set_eq_univ, hq]; rfl

/-- The distinct buffers behind the windows' arrays, each held whole, make the proof data's arrays at entry: six buffers
    for seven windows, the position table's whole share dealt in two halves to the two windows that stage it. -/
theorem arrays_split0 (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg2, main_arg1, main_v0, main_v1, main_v2] (by decide) (by decide), Gen.bigSep_W0]
  rw [win_pt m c 0 fullShare rfl, win_pt m c 1 fullShare.left rfl, win_pt m c 2 fullShare.right rfl, win_pt m c 3 fullShare rfl,
    win_pt m c 4 fullShare rfl, win_pt m c 5 fullShare rfl, win_pt m c 6 fullShare rfl]
  change (iprop((((c.tc : Thread nD τ).loc main_arg0) ↦{fullShare} V m c main_arg0) ∗ (((c.tc : Thread nD τ).loc main_arg2) ↦{fullShare} V m c main_arg2)
      ∗ (((c.tc : Thread nD τ).loc main_arg1) ↦{fullShare} V m c main_arg1) ∗ (((c.tc : Thread nD τ).loc main_v0) ↦{fullShare} V m c main_v0)
      ∗ (((c.tc : Thread nD τ).loc main_v1) ↦{fullShare} V m c main_v1) ∗ (((c.tc : Thread nD τ).loc main_v2) ↦{fullShare} V m c main_v2)) : sProp 𝕄)
    ⊢ (iprop((((c.tc : Thread nD τ).loc main_arg0) ↦{fullShare} V m c main_arg0) ∗ (((c.tc : Thread nD τ).loc main_arg2) ↦{fullShare.left} V m c main_arg2)
      ∗ (((c.tc : Thread nD τ).loc main_arg2) ↦{fullShare.right} V m c main_arg2)
      ∗ (((c.tc : Thread nD τ).loc main_arg1) ↦{fullShare} V m c main_arg1) ∗ (((c.tc : Thread nD τ).loc main_v0) ↦{fullShare} V m c main_v0)
      ∗ (((c.tc : Thread nD τ).loc main_v1) ↦{fullShare} V m c main_v1) ∗ (((c.tc : Thread nD τ).loc main_v2) ↦{fullShare} V m c main_v2)) : sProp 𝕄)
  iintro ⟨H0, H2, H1, H3, H4, H5⟩
  ihave H2 := (pointsTo_share (PosShare.mem_left_op_right fullShare)).1 $$ H2
  icases H2 with ⟨H2a, H2b⟩
  isplitl [H0]; · iexact H0
  isplitl [H2a]; · iexact H2a
  isplitl [H2b]; · iexact H2b
  isplitl [H1]; · iexact H1
  isplitl [H3]; · iexact H3
  isplitl [H4]; · iexact H4
  iexact H5

/-! ## The launch -/

set_option backward.isDefEq.respectTransparency.types false in
/-- From any memory with zero counters every weakly fair execution terminates, every array a window stages ends at what
    the write-backs leave, and every other buffer of the program as the launch found it. -/
theorem run_main : θ_run defs (onTc (τ := τ) (main (F := F))) ⟨m, fun _ => 0, ρ⟩ (Pipeline.FramePost cfgs (dats m) 0 (V m)) :=
  Pipeline.θ_run_region_noSem_shared cfgs (dats m) () Gen.cellOf_inj (0 : Fin 1) Gen.winFacts₀0 emb₁ defs₀ Variants.none m ρ main
    (hbody := fun c => body_obligation m c)
    (hne := Gen.block_pos0) (harr := Gen.arr_whole0) (hstage := Gen.stage_whole0)
    (howed := fun _ _ => rfl)
    (u₀ := initOf (Pipeline.cells cfgs Gen.cellOf_inj) (Pipeline.launchToks cfgs Gen.cellOf_inj)) (hu₀ := BI.Entails.refl _)
    (V := V m) (hmain := hmain m Variants.none)
    (hsplit := fun c => arrays_split0 m c)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The run read at the result and the arguments -/

/-- No reshape before the launch writes argument 0: the launch finds it as the run began. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- No reshape before the launch writes argument 1: the launch finds it as the run began. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- No reshape before the launch writes argument 2: the launch finds it as the run began. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- No reshape before the launch writes argument 3: the launch finds it as the run began. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- No reshape before the launch writes argument 4: the launch finds it as the run began. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- The run read at the result and the five arguments: the result at what the write-backs leave, the arguments unchanged. -/
theorem run_out : θ_run defs (onTc (τ := τ) (main (F := F))) ⟨m, fun _ => 0, ρ⟩ (fun r => ∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1 6,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Fr

end
-- ==== Proof.Spec.lean ====
/-
  Layer normalisation of a sum of three embeddings, row by row, in the two forms the two programs compute.

  A row y of 768 extended reals has mean  μ = (Σ y) / n.  One program takes the variance in a single pass,
  (Σ y²)/n − μ², and multiplies the centred row by the reciprocal square root of variance + ε; the other takes it in two
  passes, (Σ (y − μ)²)/n, and divides by the square root. Here n and ε are what the printed words denote. The row itself
  is entry (b, s, ·) of the input plus row s + 2 of the position table plus row 0 of the token-type table, the three
  added in two different orders.
-/
import Idealize.ShloMosaic.PureOps.Ideal
import Idealize.ShloMosaic.Lib.ValueIdx

noncomputable section

namespace Cert.LN

open Idealize.ShloMosaic Idealize.ShloMosaic.ValueIdx

/-- The divisor of both means, as its word denotes it. -/
def cnt : EReal := Ideal.ofBits .f32 0x44400000#32
/-- The constant added to the variance, as its word denotes it. -/
def eps : EReal := Ideal.ofBits .f32 0x2B8CBCCC#32

/-- The mean of a row. -/
def mean (y : Fin 768 → EReal) : EReal := Ideal.div (∑ k, y k) cnt

/-- One normalised row, single-pass variance, product with the reciprocal root. -/
def rowK (y g b : Fin 768 → EReal) (h : Fin 768) : EReal :=
  (y h - mean y) * Ideal.rsqrt (Ideal.div (∑ k, y k * y k) cnt - mean y * mean y + eps) * g h + b h

/-- One normalised row, two-pass variance, quotient by the root. -/
def rowR (y g b : Fin 768 → EReal) (h : Fin 768) : EReal :=
  Ideal.div (y h - mean y) (Ideal.sqrt (Ideal.div (∑ k, (y k - mean y) * (y k - mean y)) cnt + eps)) * g h + b h

abbrev A3 : Type := (⟨3, ![4, 8192, 768]⟩ : Shape).Idx → EReal
abbrev ATT : Type := (⟨2, ![2, 768]⟩ : Shape).Idx → EReal
abbrev APOS : Type := (⟨2, ![8194, 768]⟩ : Shape).Idx → EReal
abbrev AV : Type := (⟨1, ![768]⟩ : Shape).Idx → EReal

/-- Position row s + 2. -/
abbrev posRow (s : Fin 8192) : Fin 8194 := ⟨s.val + 2, by omega⟩

/-- Row (b, s) of the summed embeddings: the input plus (position row plus token-type row 0). -/
def embK (x : A3) (tt : ATT) (pos : APOS) (b : Fin 4) (s : Fin 8192) (k : Fin 768) : EReal :=
  x (ix3 b s k) + (pos (ix2 (posRow s) k) + tt (ix2 (0 : Fin 2) k))

/-- The same row: (the input plus token-type row 0) plus the position row. -/
def embR (x : A3) (tt : ATT) (pos : APOS) (b : Fin 4) (s : Fin 8192) (k : Fin 768) : EReal :=
  (x (ix3 b s k) + tt (ix2 (0 : Fin 2) k)) + pos (ix2 (posRow s) k)

/-- The whole result, first form. -/
def outK (x : A3) (tt : ATT) (pos : APOS) (g be : AV) : A3 := fun i =>
  rowK (embK x tt pos (i 0) (i 1)) (fun k => g (ix1 k)) (fun k => be (ix1 k)) (i 2)

/-- The whole result, second form. -/
def outR (x : A3) (tt : ATT) (pos : APOS) (g be : AV) : A3 := fun i =>
  rowR (embR x tt pos (i 0) (i 1)) (fun k => g (ix1 k)) (fun k => be (ix1 k)) (i 2)

theorem outK_apply (x : A3) (tt : ATT) (pos : APOS) (g be : AV) (b : Fin 4) (s : Fin 8192) (h : Fin 768) :
    outK x tt pos g be (ix3 b s h) = rowK (embK x tt pos b s) (fun k => g (ix1 k)) (fun k => be (ix1 k)) h := rfl

theorem outR_apply (x : A3) (tt : ATT) (pos : APOS) (g be : AV) (b : Fin 4) (s : Fin 8192) (h : Fin 768) :
    outR x tt pos g be (ix3 b s h) = rowR (embR x tt pos b s) (fun k => g (ix1 k)) (fun k => be (ix1 k)) h := rfl

end Cert.LN

end
-- ==== Proof.KI.Payload.lean ====
import proofs.«158010_g41644002902592_cont_8to1_b_1119_17_alg».proof.Proof.KI.Frame0
import proofs.«158010_g41644002902592_cont_8to1_b_1119_17_alg».proof.Proof.Spec
import Idealize.ShloMosaic.Lib.ValueIdx
import Idealize.ShloMosaic.Lib.ValueLayout
import Idealize.ShloMosaic.Lib.Pipeline.Value
import Idealize.ShloMosaic.PureOps.Ideal.Laws
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- Position row r of a block: rows 2‥1023 of the first position window, then rows 0‥1 of the second. -/
def prow (x1 : FVec Ideal S1024x768 .f32) (x2 : FVec Ideal S8x768 .f32) (r : Fin 1024) (k : Fin 768) : EReal :=
  if h : r.val < 1022 then x1 (ix2 (⟨r.val + 2, by omega⟩ : Fin 1024) k) else x2 (ix2 (⟨r.val - 1022, by omega⟩ : Fin 8) k)

/-! ## Layout operations at an index: the column forms -/

/-- A length-a vector cast to an a-by-1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along a row of a 1024-by-768 block, read at row r, is the sum over the row's 768 entries. -/
theorem rowsum_apply (src : FVec Ideal S1024x768 .f32) (h : S1024x768.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ k : Fin 768, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-! ## One slab's computation, over variables

The four stores' values are one computation of a 1024-by-768 block y (a batch slab plus the bias) and the scale and
shift rows, spelt four times; here it is once. -/

/-- The column of a block's row sums over the count. -/
def meanCol (y : FVec Ideal S1024x768 .f32) : FVec Ideal S1024x1 .f32 :=
  divf (shapeCast S1024x1 (multiReduction (F := Ideal) .add [1] S1024 y 0x00000000#32 reduces_S1024x768_S1024 (.inl rfl) rfl)
      shapeCasts_S1024_S1024x1)
    (broadcast S1024x1 (Scalar.ofBits .f32 0x44400000#32 : Ideal .f32))

/-- Entry (r, ·) of it is the mean of row r. -/
theorem meanCol_apply (y : FVec Ideal S1024x768 .f32) (r : Fin 1024) (u : Fin 1) :
    meanCol y (ix2 r u) = Cert.LN.mean (fun k => y (ix2 r k)) := by
  unfold meanCol
  refine (divf_apply _ _ _).trans ?_
  show Ideal.div _ _ = Ideal.div (∑ k, y (ix2 r k)) Cert.LN.cnt
  refine congrArg₂ Ideal.div ?_ rfl
  refine (shapeCast_a_a1_apply _ _ r u).trans ?_
  exact rowsum_apply y _ _ rfl r

/-- The centred block times the reciprocal root of the variance column plus the constant, scaled and shifted by the
    two rows, as a one-slab block. -/
def lnTail (c : FVec Ideal S1024x768 .f32) (q : FVec Ideal S1024x1 .f32) (v w : Vec Ideal S1x768 .f32) :
    FVec Ideal S1x1024x768 .f32 :=
  shapeCast S1x1024x768
    (addf (mulf (mulf c (broadcastTo S1024x768 (rsqrt (addf q (broadcast S1024x1 (Scalar.ofBits .f32 0x2B8CBCCC#32 : Ideal .f32))))
        broadcasts_S1024x1_S1024x768))
      (broadcastTo S1024x768 (shapeCast S1x768 v shapeCasts_S1x768_S1x768) broadcasts_S1x768_S1024x768))
      (broadcastTo S1024x768 (shapeCast S1x768 w shapeCasts_S1x768_S1x768) broadcasts_S1x768_S1024x768))
    shapeCasts_S1024x768_S1x1024x768

theorem lnTail_apply (c : FVec Ideal S1024x768 .f32) (q : FVec Ideal S1024x1 .f32) (v w : Vec Ideal S1x768 .f32)
    (u : Fin 1) (r : Fin 1024) (h : Fin 768) :
    lnTail c q v w (ix3 u r h)
      = c (ix2 r h) * Ideal.rsqrt (q (ix2 r (0 : Fin 1)) + Cert.LN.eps) * v (ix2 (0 : Fin 1) h) + w (ix2 (0 : Fin 1) h) := by
  unfold lnTail
  refine (shapeCast_ab_1ab_apply _ _ u r h).trans ?_
  refine (addf_apply _ _ _).trans ?_
  refine congrArg₂ (· + ·) ?_ ?_
  · refine (mulf_apply _ _ _).trans ?_
    refine congrArg₂ (· * ·) ?_ ?_
    · refine (mulf_apply _ _ _).trans ?_
      refine congrArg (fun z => c (ix2 r h) * z) ?_
      refine (broadcastTo_a1_ab_apply _ _ r h).trans ?_
      rfl
    · refine (broadcastTo_1b_ab_apply _ _ r h).trans ?_
      rw [shapeCast_self]
  · refine (broadcastTo_1b_ab_apply _ _ r h).trans ?_
    rw [shapeCast_self]

/-- One slab: the block y normalised row by row, scaled and shifted. -/
def lnSlab (y : FVec Ideal S1024x768 .f32) (v w : Vec Ideal S1x768 .f32) : FVec Ideal S1x1024x768 .f32 :=
  lnTail (subf y (broadcastTo S1024x768 (meanCol y) broadcasts_S1024x1_S1024x768))
    (subf (divf (shapeCast S1024x1 (multiReduction (F := Ideal) .add [1] S1024 (mulf y y) 0x00000000#32 reduces_S1024x768_S1024 (.inl rfl) rfl)
          shapeCasts_S1024_S1024x1)
        (broadcast S1024x1 (Scalar.ofBits .f32 0x44400000#32 : Ideal .f32)))
      (mulf (meanCol y) (meanCol y))) v w

theorem lnSlab_apply (y : FVec Ideal S1024x768 .f32) (v w : Vec Ideal S1x768 .f32) (u : Fin 1) (r : Fin 1024) (h : Fin 768) :
    lnSlab y v w (ix3 u r h)
      = Cert.LN.rowK (fun k => y (ix2 r k)) (fun k => v (ix2 (0 : Fin 1) k)) (fun k => w (ix2 (0 : Fin 1) k)) h := by
  unfold lnSlab
  refine (lnTail_apply _ _ v w u r h).trans ?_
  unfold Cert.LN.rowK
  refine congrArg₂ (· + ·) (congrArg₂ (· * ·) (congrArg₂ (· * ·) ?_ ?_) rfl) rfl
  · refine (subf_apply _ _ _).trans ?_
    refine congrArg (fun z => y (ix2 r h) - z) ?_
    refine (broadcastTo_a1_ab_apply _ _ r h).trans ?_
    exact meanCol_apply y r 0
  · refine congrArg (fun z => Ideal.rsqrt (z + Cert.LN.eps)) ?_
    refine (subf_apply _ _ _).trans ?_
    refine congrArg₂ (· - ·) ?_ ?_
    · refine (divf_apply _ _ _).trans ?_
      refine congrArg₂ Ideal.div ?_ rfl
      refine (shapeCast_a_a1_apply _ _ r 0).trans ?_
      exact rowsum_apply (mulf y y) _ _ rfl r
    · refine (mulf_apply _ _ _).trans ?_
      rw [meanCol_apply y r 0]

/-! ## The four stores' values are that computation -/

theorem pay3_eq (v0 : Vec Ideal S1022x768 .f32) (v1 : Vec Ideal S2x768 .f32) (v3 : Vec Ideal S1x768 .f32)
    (v6 : Vec Ideal S1x1024x768 .f32) (v27 v31 : Vec Ideal S1x768 .f32) :
    k0_pay3 (F := Ideal) v0 v1 v3 v6 v27 v31
      = lnSlab (addf (shapeCast S1024x768 v6 shapeCasts_S1x1024x768_S1024x768) (k0_pay2 v0 v1 v3)) v27 v31 := rfl

theorem pay4_eq (v5 : FVec Ideal S1024x768 .f32) (v38 : Vec Ideal S1x1024x768 .f32) (v59 v63 : Vec Ideal S1x768 .f32) :
    k0_pay4 (F := Ideal) v5 v38 v59 v63
      = lnSlab (addf (shapeCast S1024x768 v38 shapeCasts_S1x1024x768_S1024x768) v5) v59 v63 := rfl

theorem pay8_eq (v5 : FVec Ideal S1024x768 .f32) (v70 : Vec Ideal S1x1024x768 .f32) (v91 v95 : Vec Ideal S1x768 .f32) :
    k0_pay8 (F := Ideal) (k0_pay5 v5 v70) (k0_pay6 v5 v70) (k0_pay7 (F := Ideal)) v91 v95
      = lnSlab (addf (shapeCast S1024x768 v70 shapeCasts_S1x1024x768_S1024x768) v5) v91 v95 := rfl

theorem pay1_eq (v5 : FVec Ideal S1024x768 .f32) (v102 : Vec Ideal S1x1024x768 .f32) (v123 v127 : Vec Ideal S1x768 .f32) :
    k0_pay1 (F := Ideal) (k0_pay11 v5 v102) (k0_pay12 v5 v102) v123 v127
      = lnSlab (addf (shapeCast S1024x768 v102 shapeCasts_S1x1024x768_S1024x768) v5) v123 v127 := rfl

/-! ## The accesses' rectangles at an index -/

/-- Row r' of the 1022 rows read from the first position window is its row r' + 2. -/
theorem rA_idx (r' : Fin 1022) (k : Fin 768) :
    (rA : Rect S1024x768).idx (ix2 r' k) = ix2 (⟨r'.val + 2, by omega⟩ : Fin 1024) k := by
  funext a
  refine Fin.ext ?_
  match a with
  | ⟨0, _⟩ => show 2 + 1 * r'.val = r'.val + 2; omega
  | ⟨1, _⟩ => show 0 + 1 * k.val = k.val; omega

/-- Row r' of the 2 rows read from the second position window is its row r'. -/
theorem rB_idx (r' : Fin 2) (k : Fin 768) :
    (rB : Rect S8x768).idx (ix2 r' k) = ix2 (⟨r'.val, by omega⟩ : Fin 8) k := by
  funext a
  refine Fin.ext ?_
  match a with
  | ⟨0, _⟩ => show 0 + 1 * r'.val = r'.val; omega
  | ⟨1, _⟩ => show 0 + 1 * k.val = k.val; omega

/-- The one row read from the token-type table is its row 0. -/
theorem rC_idx (k : Fin 768) : (rC : Rect S2x768).idx (ix2 (0 : Fin 1) k) = ix2 (0 : Fin 2) k := by
  funext a
  refine Fin.ext ?_
  match a with
  | ⟨0, _⟩ => rfl
  | ⟨1, _⟩ => show 0 + 1 * k.val = k.val; omega

/-- The scale and shift rows are read whole. -/
theorem rG_idx (k : Fin 768) : (rG : Rect S1x768).idx (ix2 (0 : Fin 1) k) = ix2 (0 : Fin 1) k := by
  funext a
  refine Fin.ext ?_
  match a with
  | ⟨0, _⟩ => rfl
  | ⟨1, _⟩ => show 0 + 1 * k.val = k.val; omega

/-- Entry (0, r, h) of the slab at offset o is entry (o, r, h) of the buffer. -/
theorem slab_idx (o : ℕ) (inb : ∀ a, (![o, 0, 0] : Fin 3 → ℕ) a + S1x1024x768.size a ≤ S4x1024x768.size a)
    (b : Fin 4) (hb : b.val = o) (r : Fin 1024) (h : Fin 768) :
    (Rect.unit (s := S4x1024x768) ![o, 0, 0] S1x1024x768.size inb).idx (ix3 (0 : Fin 1) r h) = ix3 b r h := by
  funext a
  refine Fin.ext ?_
  match a with
  | ⟨0, _⟩ => show o + 1 * 0 = b.val; omega
  | ⟨1, _⟩ => show 0 + 1 * r.val = r.val; omega
  | ⟨2, _⟩ => show 0 + 1 * h.val = h.val; omega

/-- An entry of another slab is outside the slab at offset o. -/
theorem slab_not_mem (o : ℕ) (inb : ∀ a, (![o, 0, 0] : Fin 3 → ℕ) a + S1x1024x768.size a ≤ S4x1024x768.size a)
    (b : Fin 4) (hb : b.val ≠ o) (r : Fin 1024) (h : Fin 768) :
    ix3 b r h ∉ (Rect.unit (s := S4x1024x768) ![o, 0, 0] S1x1024x768.size inb).set := by
  intro hm
  have h0 := (Rect.mem_set_unit.mp hm) ⟨0, by decide⟩
  have h1 : o ≤ b.val := h0.1
  have h2 : b.val < o + 1 := h0.2
  omega

/-! ## The bias at an index -/

theorem pay2_apply (x1 : FVec Ideal S1024x768 .f32) (x2 : FVec Ideal S8x768 .f32) (x3 : FVec Ideal S2x768 .f32)
    (r : Fin 1024) (k : Fin 768) :
    k0_pay2 (F := Ideal) (View.ld x1 rA) (View.ld x2 rB) (View.ld x3 rC) (ix2 r k)
      = prow x1 x2 r k + x3 (ix2 (0 : Fin 2) k) := by
  unfold k0_pay2
  refine (addf_apply _ _ _).trans ?_
  refine congrArg₂ (· + ·) ?_ ?_
  · unfold prow
    by_cases hr : r.val < 1022
    · rw [dif_pos hr]
      refine (concatenate_pair_apply_left _ _ _ concatenates_S1022x768_S2x768_S1024x768_d0 (ix2 r k) rfl
        (ix2 (⟨r.val, hr⟩ : Fin 1022) k) ?_).trans ?_
      · intro b
        match b with
        | ⟨0, _⟩ => rfl
        | ⟨1, _⟩ => rfl
      · exact congrArg x1 (rA_idx ⟨r.val, hr⟩ k)
    · rw [dif_neg hr]
      have hr2 : r.val - 1022 < 2 := by have := r.isLt; omega
      refine (concatenate_pair_apply_right _ _ _ concatenates_S1022x768_S2x768_S1024x768_d0 (ix2 r k) rfl rfl
        (ix2 (⟨r.val - 1022, hr2⟩ : Fin 2) k) ?_ ?_).trans ?_
      · intro b hb
        match b, hb with
        | ⟨0, _⟩, hb => exact absurd rfl hb
        | ⟨1, _⟩, _ => rfl
      · show r.val - 1022 + 1022 = r.val
        omega
      · exact congrArg x2 (rB_idx ⟨r.val - 1022, hr2⟩ k)
  · refine (broadcastTo_1b_ab_apply _ _ r k).trans ?_
    exact congrArg x3 (rC_idx k)

/-- A batch slab plus a block, at (r, k). -/
theorem slab_row (o : ℕ) (inb : ∀ a, (![o, 0, 0] : Fin 3 → ℕ) a + S1x1024x768.size a ≤ S4x1024x768.size a)
    (b : Fin 4) (hb : b.val = o) (x0 : Vec Ideal S4x1024x768 .f32) (B : FVec Ideal S1024x768 .f32)
    (r : Fin 1024) (k : Fin 768) :
    addf (shapeCast S1024x768
        (View.ld (Val := Elt Ideal) x0 (Rect.unit (s := S4x1024x768) ![o, 0, 0] S1x1024x768.size inb) : Vec Ideal S1x1024x768 .f32)
        shapeCasts_S1x1024x768_S1024x768) B (ix2 r k) = x0 (ix3 b r k) + B (ix2 r k) := by
  refine (addf_apply _ _ _).trans ?_
  refine congrArg (· + B (ix2 r k)) ?_
  refine (shapeCast_1ab_ab_apply _ _ r k).trans ?_
  exact congrArg x0 (slab_idx o inb b hb r k)

/-! ## The four stores read back at an index -/

/-- A store into another slab leaves this entry as the earlier stores left it. -/
theorem canon_skip (o : ℕ) (inb : ∀ a, (![o, 0, 0] : Fin 3 → ℕ) a + S1x1024x768.size a ≤ S4x1024x768.size a)
    (p : Vec Ideal S1x1024x768 .f32) (L : List (View.Piece (Elt Ideal) S4x1024x768 .f32))
    (b : Fin 4) (hb : b.val ≠ o) (r : Fin 1024) (h : Fin 768) :
    View.canon ((⟨Rect.unit (s := S4x1024x768) ![o, 0, 0] S1x1024x768.size inb, p⟩ : View.Piece (Elt Ideal) S4x1024x768 .f32) :: L)
        (ix3 b r h) = View.canon L (ix3 b r h) :=
  View.canon_cons_of_not_mem
    (⟨Rect.unit (s := S4x1024x768) ![o, 0, 0] S1x1024x768.size inb, p⟩ : View.Piece (Elt Ideal) S4x1024x768 .f32) L
    (slab_not_mem o inb b hb r h)

/-- A store into this entry's slab leaves its value there. -/
theorem canon_hit (o : ℕ) (inb : ∀ a, (![o, 0, 0] : Fin 3 → ℕ) a + S1x1024x768.size a ≤ S4x1024x768.size a)
    (p : Vec Ideal S1x1024x768 .f32) (L : List (View.Piece (Elt Ideal) S4x1024x768 .f32))
    (b : Fin 4) (hb : b.val = o) (r : Fin 1024) (h : Fin 768) :
    View.canon ((⟨Rect.unit (s := S4x1024x768) ![o, 0, 0] S1x1024x768.size inb, p⟩ : View.Piece (Elt Ideal) S4x1024x768 .f32) :: L)
        (ix3 b r h) = p (ix3 (0 : Fin 1) r h) :=
  (congrArg (View.canon ((⟨Rect.unit (s := S4x1024x768) ![o, 0, 0] S1x1024x768.size inb, p⟩ : View.Piece (Elt Ideal) S4x1024x768 .f32) :: L))
      (slab_idx o inb b hb r h).symm).trans
    (View.canon_cons_emb (Rect.unit (s := S4x1024x768) ![o, 0, 0] S1x1024x768.size inb) p L (ix3 (0 : Fin 1) r h))

section Canon
variable (p3 p2 p1 p0 : Vec Ideal S1x1024x768 .f32) (b : Fin 4) (r : Fin 1024) (h : Fin 768)

theorem canon4_3 (hb : b.val = 3) :
    View.canon ([⟨rX3, p3⟩, ⟨rX2, p2⟩, ⟨rX1, p1⟩, ⟨rX0, p0⟩] : List (View.Piece (Elt Ideal) S4x1024x768 .f32)) (ix3 b r h)
      = p3 (ix3 (0 : Fin 1) r h) :=
  canon_hit 3 inb_S4x1024x768_S1x1024x768_3_0_0 p3 _ b hb r h

theorem canon4_2 (hb : b.val = 2) :
    View.canon ([⟨rX3, p3⟩, ⟨rX2, p2⟩, ⟨rX1, p1⟩, ⟨rX0, p0⟩] : List (View.Piece (Elt Ideal) S4x1024x768 .f32)) (ix3 b r h)
      = p2 (ix3 (0 : Fin 1) r h) :=
  (canon_skip 3 inb_S4x1024x768_S1x1024x768_3_0_0 p3 _ b (by omega) r h).trans
    (canon_hit 2 inb_S4x1024x768_S1x1024x768_2_0_0 p2 _ b hb r h)

theorem canon4_1 (hb : b.val = 1) :
    View.canon ([⟨rX3, p3⟩, ⟨rX2, p2⟩, ⟨rX1, p1⟩, ⟨rX0, p0⟩] : List (View.Piece (Elt Ideal) S4x1024x768 .f32)) (ix3 b r h)
      = p1 (ix3 (0 : Fin 1) r h) :=
  (canon_skip 3 inb_S4x1024x768_S1x1024x768_3_0_0 p3 _ b (by omega) r h).trans
    ((canon_skip 2 inb_S4x1024x768_S1x1024x768_2_0_0 p2 _ b (by omega) r h).trans
      (canon_hit 1 inb_S4x1024x768_S1x1024x768_1_0_0 p1 _ b hb r h))

theorem canon4_0 (hb : b.val = 0) :
    View.canon ([⟨rX3, p3⟩, ⟨rX2, p2⟩, ⟨rX1, p1⟩, ⟨rX0, p0⟩] : List (View.Piece (Elt Ideal) S4x1024x768 .f32)) (ix3 b r h)
      = p0 (ix3 (0 : Fin 1) r h) :=
  (canon_skip 3 inb_S4x1024x768_S1x1024x768_3_0_0 p3 _ b (by omega) r h).trans
    ((canon_skip 2 inb_S4x1024x768_S1x1024x768_2_0_0 p2 _ b (by omega) r h).trans
      ((canon_skip 1 inb_S4x1024x768_S1x1024x768_1_0_0 p1 _ b (by omega) r h).trans
        (canon_hit 0 inb_S4x1024x768_S1x1024x768_0_0_0 p0 _ b hb r h)))

end Canon

/-! ## One slab's store at an index -/

/-- The slab at offset o, normalised: entry (0, r, h) is the normalised row of the input's row (o, r) plus the bias row. -/
theorem slab_apply (o : ℕ) (inb : ∀ a, (![o, 0, 0] : Fin 3 → ℕ) a + S1x1024x768.size a ≤ S4x1024x768.size a)
    (b : Fin 4) (hb : b.val = o) (x0 : Vec Ideal S4x1024x768 .f32) (x1 : FVec Ideal S1024x768 .f32)
    (x2 : FVec Ideal S8x768 .f32) (x3 : FVec Ideal S2x768 .f32) (x4 x5 : Vec Ideal S1x768 .f32) (r : Fin 1024) (h : Fin 768) :
    lnSlab (addf (shapeCast S1024x768
          (View.ld (Val := Elt Ideal) x0 (Rect.unit (s := S4x1024x768) ![o, 0, 0] S1x1024x768.size inb) : Vec Ideal S1x1024x768 .f32)
          shapeCasts_S1x1024x768_S1024x768)
        (k0_pay2 (F := Ideal) (View.ld x1 rA) (View.ld x2 rB) (View.ld x3 rC)))
      (View.ld (Val := Elt Ideal) x4 rG) (View.ld (Val := Elt Ideal) x5 rG) (ix3 (0 : Fin 1) r h)
      = Cert.LN.rowK (fun k => x0 (ix3 b r k) + (prow x1 x2 r k + x3 (ix2 (0 : Fin 2) k)))
          (fun k => x4 (ix2 (0 : Fin 1) k)) (fun k => x5 (ix2 (0 : Fin 1) k)) h := by
  refine (lnSlab_apply _ _ _ 0 r h).trans ?_
  have e1 : (fun k : Fin 768 => addf (shapeCast S1024x768
          (View.ld (Val := Elt Ideal) x0 (Rect.unit (s := S4x1024x768) ![o, 0, 0] S1x1024x768.size inb) : Vec Ideal S1x1024x768 .f32)
          shapeCasts_S1x1024x768_S1024x768)
        (k0_pay2 (F := Ideal) (View.ld x1 rA) (View.ld x2 rB) (View.ld x3 rC)) (ix2 r k))
      = fun k => x0 (ix3 b r k) + (prow x1 x2 r k + x3 (ix2 (0 : Fin 2) k)) :=
    funext fun k => (slab_row o inb b hb x0 _ r k).trans (congrArg (x0 (ix3 b r k) + ·) (pay2_apply x1 x2 x3 r k))
  have e2 : (fun k : Fin 768 => View.ld (Val := Elt Ideal) x4 rG (ix2 (0 : Fin 1) k)) = fun k => x4 (ix2 (0 : Fin 1) k) :=
    funext fun k => congrArg x4 (rG_idx k)
  have e3 : (fun k : Fin 768 => View.ld (Val := Elt Ideal) x5 rG (ix2 (0 : Fin 1) k)) = fun k => x5 (ix2 (0 : Fin 1) k) :=
    funext fun k => congrArg x5 (rG_idx k)
  exact (congrArg (fun y => Cert.LN.rowK y _ _ h) e1).trans
    ((congrArg (fun g => Cert.LN.rowK _ g _ h) e2).trans (congrArg (fun s => Cert.LN.rowK _ _ s h) e3))

/-- Entry (b, r, h) of what the body leaves: the normalised row of the input's row (b, r) plus (position row r plus
    token-type row 0), scaled and shifted. -/
theorem out0_6_apply (x0 : FVec Ideal S4x1024x768 .f32) (x1 : FVec Ideal S1024x768 .f32) (x2 : FVec Ideal S8x768 .f32)
    (x3 : FVec Ideal S2x768 .f32) (x4 x5 : FVec Ideal S1x768 .f32) (b : Fin 4) (r : Fin 1024) (h : Fin 768) :
    out0_6 (F := Ideal) x0 x1 x2 x3 x4 x5 (ix3 b r h)
      = Cert.LN.rowK (fun k => x0 (ix3 b r k) + (prow x1 x2 r k + x3 (ix2 (0 : Fin 2) k)))
          (fun k => x4 (ix2 (0 : Fin 1) k)) (fun k => x5 (ix2 (0 : Fin 1) k)) h := by
  unfold out0_6 bias
  match b with
  | ⟨0, hb⟩ =>
    refine (canon4_0 _ _ _ _ ⟨0, hb⟩ r h rfl).trans ?_
    refine (congrFun (pay3_eq _ _ _ _ _ _) _).trans ?_
    exact slab_apply 0 inb_S4x1024x768_S1x1024x768_0_0_0 ⟨0, hb⟩ rfl x0 x1 x2 x3 x4 x5 r h
  | ⟨1, hb⟩ =>
    refine (canon4_1 _ _ _ _ ⟨1, hb⟩ r h rfl).trans ?_
    refine (congrFun (pay4_eq _ _ _ _) _).trans ?_
    exact slab_apply 1 inb_S4x1024x768_S1x1024x768_1_0_0 ⟨1, hb⟩ rfl x0 x1 x2 x3 x4 x5 r h
  | ⟨2, hb⟩ =>
    refine (canon4_2 _ _ _ _ ⟨2, hb⟩ r h rfl).trans ?_
    refine (congrFun (pay8_eq _ _ _ _) _).trans ?_
    exact slab_apply 2 inb_S4x1024x768_S1x1024x768_2_0_0 ⟨2, hb⟩ rfl x0 x1 x2 x3 x4 x5 r h
  | ⟨3, hb⟩ =>
    refine (canon4_3 _ _ _ _ ⟨3, hb⟩ r h rfl).trans ?_
    refine (congrFun (pay1_eq _ _ _ _) _).trans ?_
    exact slab_apply 3 inb_S4x1024x768_S1x1024x768_3_0_0 ⟨3, hb⟩ rfl x0 x1 x2 x3 x4 x5 r h
  | ⟨n + 4, hb⟩ => exact absurd hb (by omega)

end Cert.KernelIdeal.Fr

end
-- ==== Proof.KI.Value.lean ====
import proofs.«158010_g41644002902592_cont_8to1_b_1119_17_alg».proof.Proof.KI.Frame0
import proofs.«158010_g41644002902592_cont_8to1_b_1119_17_alg».proof.Proof.KI.Payload
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

namespace Value6

/-! ## The block indices, decided over the eight points -/

/-- Each window's block index at point t: the input and the result move along the row axis with t, the first position
    window too, the second sits at 128·(t + 1) (blocks of 8 rows, so row 1024·(t + 1)); the three small windows stay at 0. -/
theorem idx_facts : ∀ t : Fin cfg0.N,
    win0_6.index t (0 : Fin 3) = 0 ∧ win0_6.index t (1 : Fin 3) = t.val ∧ win0_6.index t (2 : Fin 3) = 0
    ∧ win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 128 * (t.val + 1) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- How much of the two position windows' blocks lies inside the table of 8194 rows: all 1024 rows of the first at every
    point, and at least two rows of the second (exactly two at the last point, rows 8192 and 8193). -/
theorem xsize_facts : ∀ t : Fin cfg0.N,
    win0_1.xsize (grid0.coords t) (0 : Fin 2) = 1024 ∧ win0_1.xsize (grid0.coords t) (1 : Fin 2) = 768
    ∧ 2 ≤ win0_2.xsize (grid0.coords t) (0 : Fin 2) ∧ win0_2.xsize (grid0.coords t) (1 : Fin 2) = 768 :=
  (by decide +kernel : ∀ t : Fin grid0.N, _)

section
variable (m : (ℓ : Loc nD τ sig) → Buf (Elt F) ℓ)

/-- The two reshapes before the launch write neither the input nor the two tables: the launch finds them as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
end

section
variable (m : (ℓ : Loc nD τ sig) → Buf (Elt Ideal) ℓ)

/-- The launch finds the scale and shift vectors reshaped to one row of 768. -/
theorem V_main_v0 (c : Dev nD) : (V m c main_v0 : S1x768.Idx → EReal)
    = shapeCast S1x768 (m ((c : Thread nD τ).loc main_arg3) : S768.Idx → EReal) shapeCasts_S768_S1x768 := by
  dsimp only [V, hostOps0]; after_results; rfl
theorem V_main_v1 (c : Dev nD) : (V m c main_v1 : S1x768.Idx → EReal)
    = shapeCast S1x768 (m ((c : Thread nD τ).loc main_arg4) : S768.Idx → EReal) shapeCasts_S768_S1x768 := by
  dsimp only [V, hostOps0]; after_results; rfl
end

/-! ## Each window's block, read at an index -/

section
variable (m : (ℓ : Loc nD τ sig) → Buf (Elt Ideal) ℓ)

/-- The input's block at point t holds rows 1024·t ‥ 1024·t + 1023 of every batch entry. -/
theorem iblk0_apply (c : Dev nD) (t : Fin cfg0.N) (x : S4x1024x768.Idx) (k : S4x8192x768.Idx)
    (hk0 : (k 0).val = (x 0).val) (hk1 : (k 1).val = 1024 * t.val + (x 1).val) (hk2 : (k 2).val = (x 2).val) :
    (iblk m c 0 t : FVec Ideal S4x1024x768 .f32) x = (m ((c : Thread nD τ).loc main_arg0) : S4x8192x768.Idx → EReal) k := by
  obtain ⟨-, -, -, e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 4 + 1 * (x 0).val = (k 0).val; rw [e0, hk0]; omega
  | ⟨1, _⟩ => show win0_0.index t 1 * 1024 + 1 * (x 1).val = (k 1).val; rw [e1, hk1]; omega
  | ⟨2, _⟩ => show win0_0.index t 2 * 768 + 1 * (x 2).val = (k 2).val; rw [e2, hk2]; omega

/-- The token-type window's block is the whole table. -/
theorem iblk3_apply (c : Dev nD) (t : Fin cfg0.N) (x : S2x768.Idx) :
    (iblk m c 3 t : FVec Ideal S2x768 .f32) x = (m ((c : Thread nD τ).loc main_arg1) : S2x768.Idx → EReal) x := by
  obtain ⟨-, -, -, -, -, -, -, -, -, -, e0, e1, -⟩ := idx_facts t
  unfold iblk
  rw [View.read_apply]
  show V m c main_arg1 _ = m (c.tc.loc main_arg1) _
  rw [V_main_arg1]
  congr 1
  funext a
  apply Fin.ext
  match a with
  | ⟨0, _⟩ => show win0_3.index t 0 * 2 + 1 * (x 0).val = (x 0).val; rw [e0]; omega
  | ⟨1, _⟩ => show win0_3.index t 1 * 768 + 1 * (x 1).val = (x 1).val; rw [e1]; omega

/-- The scale window's block is the scale vector as one row. -/
theorem iblk4_apply (c : Dev nD) (t : Fin cfg0.N) (k : Fin 768) :
    (iblk m c 4 t : FVec Ideal S1x768 .f32) (ix2 (0 : Fin 1) k) = (m ((c : Thread nD τ).loc main_arg3) : S768.Idx → EReal) (ix1 k) := by
  obtain ⟨-, -, -, -, -, -, -, -, -, -, -, -, e0, e1, -⟩ := idx_facts t
  unfold iblk
  rw [View.read_apply]
  show V m c main_v0 _ = m (c.tc.loc main_arg3) _
  rw [V_main_v0]
  refine shapeCast_apply _ _ _ _ ?_
  show (S768.rowMajor (ix1 k)).val = (S1x768.rowMajor _).val
  rw [Shape.rowMajor_val_one, Shape.rowMajor_val_two]
  show (k : Nat) = (win0_4.index t 0 * 1 + 1 * ((0 : Fin 1) : Nat)) * 768 + (win0_4.index t 1 * 768 + 1 * (k : Nat))
  rw [e0, e1]; simp

/-- The shift window's block is the shift vector as one row. -/
theorem iblk5_apply (c : Dev nD) (t : Fin cfg0.N) (k : Fin 768) :
    (iblk m c 5 t : FVec Ideal S1x768 .f32) (ix2 (0 : Fin 1) k) = (m ((c : Thread nD τ).loc main_arg4) : S768.Idx → EReal) (ix1 k) := by
  obtain ⟨-, -, -, -, -, -, -, -, -, -, -, -, -, -, e0, e1⟩ := idx_facts t
  unfold iblk
  rw [View.read_apply]
  show V m c main_v1 _ = m (c.tc.loc main_arg4) _
  rw [V_main_v1]
  refine shapeCast_apply _ _ _ _ ?_
  show (S768.rowMajor (ix1 k)).val = (S1x768.rowMajor _).val
  rw [Shape.rowMajor_val_one, Shape.rowMajor_val_two]
  show (k : Nat) = (win0_5.index t 0 * 1 + 1 * ((0 : Fin 1) : Nat)) * 768 + (win0_5.index t 1 * 768 + 1 * (k : Nat))
  rw [e0, e1]; simp

end

section
variable (m : (ℓ : Loc nD τ sig) → Buf (Elt Ideal) ℓ)

/-- The first position window's staging contents at point t: every one of its 1024 rows lies inside the table and is
    row 1024·t + (its row) of it. -/
theorem pblkA_apply (c : Dev nD) (t : Fin cfg0.N) (j : S1024x768.Idx) (k : S8194x768.Idx)
    (hk0 : (k 0).val = 1024 * t.val + (j 0).val) (hk1 : (k 1).val = (j 1).val) :
    pblkA m c t j = (m ((c : Thread nD τ).loc main_arg2) : S8194x768.Idx → EReal) k := by
  obtain ⟨-, -, -, -, -, -, e0, e1, -⟩ := idx_facts t
  obtain ⟨x0, x1, -, -⟩ := xsize_facts t
  have hmv : win0_1.moved (grid0.coords t) j = true := (win0_1.moved_iff (grid0.coords t) j).mpr (fun a => by
    match a with
    | ⟨0, _⟩ => show (j 0).val < win0_1.xsize (grid0.coords t) 0; rw [x0]; exact idx2_lt0 j
    | ⟨1, _⟩ => show (j 1).val < win0_1.xsize (grid0.coords t) 1; rw [x1]; exact idx2_lt1 j)
  unfold pblkA Window.fill
  rw [dif_pos hmv]
  unfold iblk
  rw [View.read_apply]
  show V m c main_arg2 _ = m (c.tc.loc main_arg2) _
  rw [V_main_arg2]
  congr 1
  funext a
  apply Fin.ext
  match a with
  | ⟨0, _⟩ => show win0_1.index t 0 * 1024 + 1 * (j 0).val = (k 0).val; rw [e0, hk0]; omega
  | ⟨1, _⟩ => show win0_1.index t 1 * 768 + 1 * (j 1).val = (k 1).val; rw [e1, hk1]; omega

/-- The second position window's staging contents at point t: its first two rows lie inside the table at every point
    and are rows 1024·(t + 1) and 1024·(t + 1) + 1 of it. -/
theorem pblkB_apply (c : Dev nD) (t : Fin cfg0.N) (j : S8x768.Idx) (hj : (j 0).val < 2) (k : S8194x768.Idx)
    (hk0 : (k 0).val = 1024 * (t.val + 1) + (j 0).val) (hk1 : (k 1).val = (j 1).val) :
    pblkB m c t j = (m ((c : Thread nD τ).loc main_arg2) : S8194x768.Idx → EReal) k := by
  obtain ⟨-, -, -, -, -, -, -, -, e0, e1, -⟩ := idx_facts t
  obtain ⟨-, -, x0, x1⟩ := xsize_facts t
  have hmv : win0_2.moved (grid0.coords t) j = true := (win0_2.moved_iff (grid0.coords t) j).mpr (fun a => by
    match a with
    | ⟨0, _⟩ => show (j 0).val < win0_2.xsize (grid0.coords t) 0; omega
    | ⟨1, _⟩ => show (j 1).val < win0_2.xsize (grid0.coords t) 1; rw [x1]; exact idx2_lt1 j)
  unfold pblkB Window.fill
  rw [dif_pos hmv]
  unfold iblk
  rw [View.read_apply]
  show V m c main_arg2 _ = m (c.tc.loc main_arg2) _
  rw [V_main_arg2]
  congr 1
  funext a
  apply Fin.ext
  match a with
  | ⟨0, _⟩ => show win0_2.index t 0 * 8 + 1 * (j 0).val = (k 0).val; rw [e0, hk0]; omega
  | ⟨1, _⟩ => show win0_2.index t 1 * 768 + 1 * (j 1).val = (k 1).val; rw [e1, hk1]; omega

/-- So position row r of the block at point t is row 1024·t + r + 2 of the table, for every row r of the block: the last
    two come from the second window. -/
theorem prow_apply (c : Dev nD) (t : Fin cfg0.N) (r : Fin 1024) (k : Fin 768) (s : Fin 8192) (hs : s.val = 1024 * t.val + r.val) :
    prow (pblkA m c t) (pblkB m c t) r k
      = (m ((c : Thread nD τ).loc main_arg2) : S8194x768.Idx → EReal) (ix2 (Cert.LN.posRow s) k) := by
  unfold prow
  split
  · next h =>
    refine pblkA_apply m c t (ix2 (⟨r.val + 2, by omega⟩ : Fin 1024) k) (ix2 (Cert.LN.posRow s) k) ?_ rfl
    show s.val + 2 = 1024 * t.val + (r.val + 2); omega
  · next h =>
    have hr := r.isLt
    refine pblkB_apply m c t (ix2 (⟨r.val - 1022, by omega⟩ : Fin 8) k) ?_ (ix2 (Cert.LN.posRow s) k) ?_ rfl
    · show r.val - 1022 < 2; omega
    · show s.val + 2 = 1024 * (t.val + 1) + (r.val - 1022); omega

end

/-! ## What a point writes back, and the whole array -/

section
variable (m : (ℓ : Loc nD τ sig) → Buf (Elt Ideal) ℓ)

/-- The whole result as one function of the five arguments. -/
abbrev G6 (c : Dev nD) : S4x8192x768.Idx → EReal :=
  Cert.LN.outK (m ((c : Thread nD τ).loc main_arg0)) (m ((c : Thread nD τ).loc main_arg1)) (m ((c : Thread nD τ).loc main_arg2))
    (m ((c : Thread nD τ).loc main_arg3)) (m ((c : Thread nD τ).loc main_arg4))

/-- Entry j of what the body leaves at point t is the whole result's entry at row 1024·t + (j's row). -/
theorem body_at (c : Dev nD) (t : Fin cfg0.N) (j : S4x1024x768.Idx) (i : S4x8192x768.Idx)
    (h0 : (i 0).val = (j 0).val) (h1 : (i 1).val = 1024 * t.val + (j 1).val) (h2 : (i 2).val = (j 2).val) :
    out0_6 (F := Ideal) (iblk m c 0 t) (pblkA m c t) (pblkB m c t) (iblk m c 3 t) (iblk m c 4 t) (iblk m c 5 t) j = G6 m c i := by
  obtain ⟨b, r, h, rfl⟩ : ∃ b r h, j = ix3 b r h := ⟨j 0, j 1, j 2, eq_ix3 j⟩
  obtain ⟨b', s, h', rfl⟩ : ∃ b' s h', i = ix3 b' s h' := ⟨i 0, i 1, i 2, eq_ix3 i⟩
  obtain rfl : b' = b := Fin.ext h0
  obtain rfl : h' = h := Fin.ext h2
  have hs : s.val = 1024 * t.val + r.val := h1
  rw [out0_6_apply]
  show _ = Cert.LN.outK _ _ _ _ _ (ix3 b' s h')
  rw [Cert.LN.outK_apply]
  congr 1
  · funext k
    unfold Cert.LN.embK
    rw [iblk0_apply m c t (ix3 b' r k) (ix3 b' s k) rfl hs rfl, prow_apply m c t r k s hs, iblk3_apply]
  · funext k; exact iblk4_apply m c t k
  · funext k; exact iblk5_apply m c t k

/-- What point t writes back is its block of the whole result. -/
theorem flushed6_eq (c : Dev nD) (t : Fin cfg0.N) :
    (dats (F := Ideal) m 0 c).flushed 6 t = ((cfg0.win 6).blk t).view.read (Elt Ideal) (G6 m c) := by
  obtain ⟨e0, e1, e2, -⟩ := idx_facts t
  show (cfg0.win 6).cut (grid0.coords t) ((dats m 0 c).after 6 t) = _
  rw [after0_6]
  funext j
  rw [View.read_apply]
  show out0_6 (F := Ideal) (iblk m c 0 t) (pblkA m c t) (pblkB m c t) (iblk m c 3 t) (iblk m c 4 t) (iblk m c 5 t) j
    = G6 m c (((cfg0.win 6).blk t).view.emb j)
  refine body_at m c t j _ ?_ ?_ ?_
  · show win0_6.index t 0 * 4 + 1 * (j 0).val = (j 0).val; rw [e0]; omega
  · show win0_6.index t 1 * 1024 + 1 * (j 1).val = 1024 * t.val + (j 1).val; rw [e1]; omega
  · show win0_6.index t 2 * 768 + 1 * (j 2).val = (j 2).val; rw [e2]; omega

/-- An index of the result array lies in point t's block iff each coordinate lies in the block's range on its axis. -/
theorem mem_blk6 (t : Fin cfg0.N) (i : S4x8192x768.Idx) :
    i ∈ ((cfg0.win 6).blk t).view.set ↔ ∀ a : Fin 3, win0_6.index t a * S4x1024x768.size a ≤ (i a).val
      ∧ (i a).val < win0_6.index t a * S4x1024x768.size a + S4x1024x768.size a := by
  show i ∈ ((View.whole main_v2).slice (win0_6.rect t)).set ↔ _
  rw [View.set_slice_whole, Rect.mem_set_unit]
  exact Iff.rfl

/-- Row s of the result is written by point s / 1024: the eight blocks tile the array. -/
theorem cover6 (i : S4x8192x768.Idx) : ∃ t : Fin cfg0.N, (cfg0.win 6).flush t = true ∧ i ∈ ((cfg0.win 6).blk t).view.set := by
  have hi0 : (i 0).val < 4 := (i 0).isLt
  have hi1 : (i 1).val < 8192 := (i 1).isLt
  have hi2 : (i 2).val < 768 := (i 2).isLt
  have hN : cfg0.N = 8 := N_0
  obtain ⟨t, ht⟩ : ∃ t : Fin cfg0.N, t.val = (i 1).val / 1024 := ⟨⟨(i 1).val / 1024, by rw [hN]; omega⟩, rfl⟩
  obtain ⟨e0, e1, e2, -⟩ := idx_facts t
  refine ⟨t, flush0_6 t, ?_⟩
  rw [mem_blk6]
  intro a
  match a with
  | ⟨0, _⟩ => show win0_6.index t 0 * 4 ≤ (i 0).val ∧ (i 0).val < win0_6.index t 0 * 4 + 4; rw [e0]; omega
  | ⟨1, _⟩ => show win0_6.index t 1 * 1024 ≤ (i 1).val ∧ (i 1).val < win0_6.index t 1 * 1024 + 1024; rw [e1]; omega
  | ⟨2, _⟩ => show win0_6.index t 2 * 768 ≤ (i 2).val ∧ (i 2).val < win0_6.index t 2 * 768 + 768; rw [e2]; omega

end

end Value6

/-- The result array after every write-back is the whole-array function: entry (b, s, h) is the normalised row of the
    input's row (b, s) plus position row s + 2 plus token-type row 0. -/
theorem final6 (m : (ℓ : Loc nD τ sig) → Buf (Elt Ideal) ℓ) (c : Dev nD) :
    (dats (F := Ideal) m 0 c).arrAt 6 cfg0.N
      = Cert.LN.outK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
  (dats (F := Ideal) m 0 c).arrAt_eq_of_cover 6 (Value6.G6 m c) (fun t _ => Value6.flushed6_eq m c t) Value6.cover6

end Cert.KernelIdeal.Fr

end
-- ==== Proof.RefTerm.lean ====
/-
  The reference program's result as one pure function of its five arguments.

  Position ids are 2 + (0, 1, …, 8191) along the sequence, the same for every batch entry; token-type ids are all zero.
  Each table lookup shifts a negative id up by the table's height, gathers the rows, and replaces by a fill word every
  row whose id is not a row of the table. The embeddings are (input + token-type rows) + position rows; the layer
  normalisation takes the mean over the last axis, the mean of the squared deviations, adds ε, takes the root, divides,
  scales and shifts.
-/
import proofs.«158010_g41644002902592_cont_8to1_b_1119_17_alg».proof.ReferenceIdeal
import proofs.«158010_g41644002902592_cont_8to1_b_1119_17_alg».proof.Proof.Gen.ReferenceIdeal

noncomputable section

namespace Cert.ReferenceIdeal.RefRun

open Idealize.ShloMosaic Idealize.SL.Sem
open Cert.ReferenceIdeal Cert.ReferenceIdeal.Facts₀

variable {F : FTy → Type} [FloatOps F] [Facts]

/-- The position ids: 2 + iota along the sequence, laid out over the batch. -/
def posIds : IVec S4x8192 32 :=
  broadcastInDim S4x8192 ![0, 1] bcast_S1x8192_S4x8192_0_1
    (broadcastInDim S1x8192 ![1] bcast_S8192_S1x8192_1
      (addi (broadcastInDim S8192 ![] bcast_S_S8192 (constantI S_ 32 2#32)) (iotaInDim S8192 32 0)))

/-- The token-type ids: all zero. -/
def ttIds : IVec S4x8192 32 := broadcastInDim S4x8192 ![] bcast_S_S4x8192 (constantI S_ 32 0#32)

/-- An id array as the gather reads it: a negative id shifted up by the table's height N, laid out as a column. -/
def wrapped (N : BitVec 32) (idx : IVec S4x8192 32) : IVec S4x8192x1 32 :=
  broadcastInDim S4x8192x1 ![0, 1] bcast_S4x8192_S4x8192x1_0_1
    (select (cmpi .slt idx (broadcastInDim S4x8192 ![] bcast_S_S4x8192 (constantI S_ 32 0#32)))
      (addi idx (broadcastInDim S4x8192 ![] bcast_S_S4x8192 (constantI S_ 32 N))) idx)

/-- Which ids, so shifted, are rows of the table: 0 ≤ id ≤ M (M the last row). -/
def inTable (M : BitVec 32) (w : IVec S4x8192x1 32) : IVec S4x8192x768 1 :=
  broadcastInDim S4x8192x768 ![0, 1] bcast_S4x8192_S4x8192x768_0_1
    (Host.reduce IntOp.andi
      (andi (cmpi .sge w (broadcastInDim S4x8192x1 ![] bcast_S_S4x8192x1 (constantI S_ 32 0#32)))
        (cmpi .sle w (broadcastInDim S4x8192x1 ![0, 1, 2] bcast_S1x1x1_S4x8192x1_0_1_2
          (broadcastInDim S1x1x1 ![2] bcast_S1_S1x1x1_2 (constantI S1 32 M)))))
      (constantI S_ 1 1#1) reducesTo_S4x8192x1_S4x8192_d2 h_S_)

/-- The fill word of a lookup outside the table. -/
def fillRows : FVec F S4x8192x768 .f32 :=
  broadcastInDim S4x8192x768 ![] bcast_S_S4x8192x768 (constant S_ .f32 0x7FC00000#32)

/-- The token-type lookup. -/
def takeTT (tt : FVec F S2x768 .f32) (idx : IVec S4x8192 32) : FVec F S4x8192x768 .f32 :=
  select (inTable 1#32 (wrapped 2#32 idx))
    (Host.gather gather_S2x768_S4x8192x1_S4x8192x768_2_0_n_n_0_2_1768 tt (wrapped 2#32 idx)) (fillRows (F := F))

/-- The position lookup. -/
def takePos (pos : FVec F S8194x768 .f32) (idx : IVec S4x8192 32) : FVec F S4x8192x768 .f32 :=
  select (inTable 8193#32 (wrapped 8194#32 idx))
    (Host.gather gather_S8194x768_S4x8192x1_S4x8192x768_2_0_n_n_0_2_1768 pos (wrapped 8194#32 idx)) (fillRows (F := F))

/-- The summed embeddings. -/
def emb (x : FVec F S4x8192x768 .f32) (tt : FVec F S2x768 .f32) (pos : FVec F S8194x768 .f32) : FVec F S4x8192x768 .f32 :=
  addf (addf x (takeTT tt ttIds)) (takePos pos posIds)

/-- The divisor of the two means, laid out as a column. -/
def cntCol : FVec F S4x8192x1 .f32 := broadcastInDim S4x8192x1 ![] bcast_S_S4x8192x1 (constant S_ .f32 0x44400000#32)

/-- A column (one value per row) laid out over the last axis. -/
def overLast (v : FVec F S4x8192x1 .f32) : FVec F S4x8192x768 .f32 :=
  broadcastInDim S4x8192x768 ![0, 1, 2] bcast_S4x8192x1_S4x8192x768_0_1_2 v

/-- The mean over the last axis, as a column. -/
def meanCol (e : FVec F S4x8192x768 .f32) : FVec F S4x8192x1 .f32 :=
  Host.divf (broadcastInDim S4x8192x1 ![0, 1] bcast_S4x8192_S4x8192x1_0_1
    (Host.reduceAdd e (constant S_ .f32 0x00000000#32) reducesTo_S4x8192x768_S4x8192_d2 h_S_)) (cntCol (F := F))

/-- A vector over the last axis laid out over the whole array. -/
def overRows (v : FVec F S768 .f32) : FVec F S4x8192x768 .f32 :=
  broadcastInDim S4x8192x768 ![0, 1, 2] bcast_S1x1x768_S4x8192x768_0_1_2 (broadcastInDim S1x1x768 ![2] bcast_S768_S1x1x768_2 v)

/-- The layer normalisation of the embeddings. -/
def normed (e : FVec F S4x8192x768 .f32) (g be : FVec F S768 .f32) : FVec F S4x8192x768 .f32 :=
  addf (mulf
    (Host.divf (subf e (overLast (meanCol e)))
      (overLast (Host.sqrt (addf (meanCol (mulf (subf e (overLast (meanCol e))) (subf e (overLast (meanCol e)))))
        (broadcastInDim S4x8192x1 ![] bcast_S_S4x8192x1 (constant S_ .f32 0x2B8CBCCC#32))))))
    (overRows g)) (overRows be)

/-- The program's result. -/
def result (x : FVec F S4x8192x768 .f32) (tt : FVec F S2x768 .f32) (pos : FVec F S8194x768 .f32) (g be : FVec F S768 .f32) :
    FVec F S4x8192x768 .f32 :=
  normed (emb x tt pos) g be

end Cert.ReferenceIdeal.RefRun

end
-- ==== Proof.RefRun.lean ====
/-
  The reference program's run.

  The program is a straight line of eighty-five whole-array operations: eight that make the position ids
  2 + (0, 1, …, 8191) and the all-zero token-type ids; the twenty-three of the token-type lookup (a negative id moved
  up by the table's height, the gather of rows, the test 0 ≤ id ≤ last row folded over the unit axis, the fill word,
  the choice between gathered row and fill); one sum; the same twenty-three for the position lookup; one more sum; and
  the twenty-nine of the layer normalisation (mean over the last axis, deviations, their squares, the mean of those
  plus ε, its root, the quotient, scale and shift). Each operation writes one buffer of its own and reads buffers
  written before it or arguments; no operation writes an argument.

  So the contents after the line are a fold of the operations over the contents at the start, the fold at the last
  buffer written is the composition of the operations' functions along the data flow — which is, definition by
  definition, the term `result` — and the fold at an argument is what the argument held at the start.
-/
import proofs.«158010_g41644002902592_cont_8to1_b_1119_17_alg».proof.Proof.RefTerm
import Idealize.ShloMosaic.Lib.StableHlo.Run
import Idealize.ShloMosaic.Lib.Pipeline.Regions

noncomputable section

namespace Cert.ReferenceIdeal.RefRun

open Idealize.ShloMosaic Idealize.ShloMosaic.TcCoe Idealize.SL.Sem
open Cert.ReferenceIdeal Cert.ReferenceIdeal.Facts₀

variable {F : FTy → Type} [FloatOps F] [Facts]

namespace Line

open Idealize.ShloMosaic.StableHlo

/-- The program's operations in order, each lookup's operations (and, inside it, the choice of the shifted id) listed
    where the lookup is called, over the buffers that call names. -/
abbrev ops : List (HloOp τ sig (Elt F)) :=
  [ StableHlo.nullary main_v0 (iotaInDim S8192 32 0),
    StableHlo.nullary main_c (constantI S_ 32 2#32),
    StableHlo.unary main_c main_v1 (broadcastInDim S8192 ![] bcast_S_S8192 : (⟨S_, .i32⟩ : BufTy).Contents (Elt F) → (⟨S8192, .i32⟩ : BufTy).Contents (Elt F)),
    StableHlo.binary main_v1 main_v0 main_v2 (addi : (⟨S8192, .i32⟩ : BufTy).Contents (Elt F) → (⟨S8192, .i32⟩ : BufTy).Contents (Elt F) → (⟨S8192, .i32⟩ : BufTy).Contents (Elt F)),
    StableHlo.unary main_v2 main_v3 (broadcastInDim S1x8192 ![1] bcast_S8192_S1x8192_1 : (⟨S8192, .i32⟩ : BufTy).Contents (Elt F) → (⟨S1x8192, .i32⟩ : BufTy).Contents (Elt F)),
    StableHlo.unary main_v3 main_v4 (broadcastInDim S4x8192 ![0, 1] bcast_S1x8192_S4x8192_0_1 : (⟨S1x8192, .i32⟩ : BufTy).Contents (Elt F) → (⟨S4x8192, .i32⟩ : BufTy).Contents (Elt F)),
    StableHlo.nullary main_c_0 (constantI S_ 32 0#32),
    StableHlo.unary main_c_0 main_v5 (broadcastInDim S4x8192 ![] bcast_S_S4x8192 : (⟨S_, .i32⟩ : BufTy).Contents (Elt F) → (⟨S4x8192, .i32⟩ : BufTy).Contents (Elt F)),
    StableHlo.TRef.nullary main_call0.c (constantI S_ 32 0#32),
    StableHlo.TRef.unary main_call0.c main_call0.v0 (broadcastInDim S4x8192 ![] bcast_S_S4x8192),
    StableHlo.TRef.binary (StableHlo.TRef.of main_v5 : StableHlo.TRef sig ⟨S4x8192, .i32⟩) main_call0.v0 main_call0.v1 (cmpi .slt),
    StableHlo.TRef.nullary main_call0.c_0 (constantI S_ 32 2#32),
    StableHlo.TRef.unary main_call0.c_0 main_call0.v2 (broadcastInDim S4x8192 ![] bcast_S_S4x8192),
    StableHlo.TRef.binary (StableHlo.TRef.of main_v5 : StableHlo.TRef sig ⟨S4x8192, .i32⟩) main_call0.v2 main_call0.v3 addi,
    StableHlo.TRef.ternary main_call0.v1 main_call0.v3 (StableHlo.TRef.of main_v5 : StableHlo.TRef sig ⟨S4x8192, .i32⟩) main_call0.call0.v0 select,
    StableHlo.TRef.unary main_call0.call0.v0 main_call0.v5 (broadcastInDim S4x8192x1 ![0, 1] bcast_S4x8192_S4x8192x1_0_1),
    StableHlo.TRef.nullary main_call0.c_1 (constantI S1 32 1#32),
    StableHlo.TRef.nullary main_call0.c_2 (constantI S_ 32 0#32),
    StableHlo.TRef.unary main_call0.c_2 main_call0.v6 (broadcastInDim S4x8192x1 ![] bcast_S_S4x8192x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4x8192x1 ![0, 1, 2] bcast_S1x1x1_S4x8192x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4x8192x1_S4x8192_d2 h_S_),
    StableHlo.TRef.binary (StableHlo.TRef.of main_arg1 : StableHlo.TRef sig ⟨S2x768, .f32⟩) main_call0.v5 main_call0.v13 (fun x i => Host.gather gather_S2x768_S4x8192x1_S4x8192x768_2_0_n_n_0_2_1768 x i),
    StableHlo.TRef.unary main_call0.v12 main_call0.v14 (broadcastInDim S4x8192x768 ![0, 1] bcast_S4x8192_S4x8192x768_0_1),
    StableHlo.TRef.nullary main_call0.cst (constant S_ .f32 0x7FC00000#32),
    StableHlo.TRef.unary main_call0.cst main_call0.v15 (broadcastInDim S4x8192x768 ![] bcast_S_S4x8192x768),
    StableHlo.TRef.ternary main_call0.v14 main_call0.v13 main_call0.v15 main_call0.v16 select,
    StableHlo.binary main_arg0 main_v6 main_v7 (addf : (⟨S4x8192x768, .f32⟩ : BufTy).Contents (Elt F) → (⟨S4x8192x768, .f32⟩ : BufTy).Contents (Elt F) → (⟨S4x8192x768, .f32⟩ : BufTy).Contents (Elt F)),
    StableHlo.TRef.nullary main_call1.c (constantI S_ 32 0#32),
    StableHlo.TRef.unary main_call1.c main_call1.v0 (broadcastInDim S4x8192 ![] bcast_S_S4x8192),
    StableHlo.TRef.binary (StableHlo.TRef.of main_v4 : StableHlo.TRef sig ⟨S4x8192, .i32⟩) main_call1.v0 main_call1.v1 (cmpi .slt),
    StableHlo.TRef.nullary main_call1.c_0 (constantI S_ 32 8194#32),
    StableHlo.TRef.unary main_call1.c_0 main_call1.v2 (broadcastInDim S4x8192 ![] bcast_S_S4x8192),
    StableHlo.TRef.binary (StableHlo.TRef.of main_v4 : StableHlo.TRef sig ⟨S4x8192, .i32⟩) main_call1.v2 main_call1.v3 addi,
    StableHlo.TRef.ternary main_call1.v1 main_call1.v3 (StableHlo.TRef.of main_v4 : StableHlo.TRef sig ⟨S4x8192, .i32⟩) main_call1.call0.v0 select,
    StableHlo.TRef.unary main_call1.call0.v0 main_call1.v5 (broadcastInDim S4x8192x1 ![0, 1] bcast_S4x8192_S4x8192x1_0_1),
    StableHlo.TRef.nullary main_call1.c_1 (constantI S1 32 8193#32),
    StableHlo.TRef.nullary main_call1.c_2 (constantI S_ 32 0#32),
    StableHlo.TRef.unary main_call1.c_2 main_call1.v6 (broadcastInDim S4x8192x1 ![] bcast_S_S4x8192x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S4x8192x1 ![0, 1, 2] bcast_S1x1x1_S4x8192x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4x8192x1_S4x8192_d2 h_S_),
    StableHlo.TRef.binary (StableHlo.TRef.of main_arg2 : StableHlo.TRef sig ⟨S8194x768, .f32⟩) main_call1.v5 main_call1.v13 (fun x i => Host.gather gather_S8194x768_S4x8192x1_S4x8192x768_2_0_n_n_0_2_1768 x i),
    StableHlo.TRef.unary main_call1.v12 main_call1.v14 (broadcastInDim S4x8192x768 ![0, 1] bcast_S4x8192_S4x8192x768_0_1),
    StableHlo.TRef.nullary main_call1.cst (constant S_ .f32 0x7FC00000#32),
    StableHlo.TRef.unary main_call1.cst main_call1.v15 (broadcastInDim S4x8192x768 ![] bcast_S_S4x8192x768),
    StableHlo.TRef.ternary main_call1.v14 main_call1.v13 main_call1.v15 main_call1.v16 select,
    StableHlo.binary main_v7 main_v8 main_v9 (addf : (⟨S4x8192x768, .f32⟩ : BufTy).Contents (Elt F) → (⟨S4x8192x768, .f32⟩ : BufTy).Contents (Elt F) → (⟨S4x8192x768, .f32⟩ : BufTy).Contents (Elt F)),
    StableHlo.nullary main_cst (constant S_ .f32 0x00000000#32),
    StableHlo.binary main_v9 main_cst main_v10 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    StableHlo.unary main_v10 main_v11 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_1 (constant S_ .f32 0x44400000#32),
    StableHlo.unary main_cst_1 main_v12 (broadcastInDim S4x8192x1 ![] bcast_S_S4x8192x1 : (⟨S_, .f32⟩ : BufTy).Contents (Elt F) → (⟨S4x8192x1, .f32⟩ : BufTy).Contents (Elt F)),
    StableHlo.binary main_v11 main_v12 main_v13 (Host.divf : (⟨S4x8192x1, .f32⟩ : BufTy).Contents (Elt F) → (⟨S4x8192x1, .f32⟩ : BufTy).Contents (Elt F) → (⟨S4x8192x1, .f32⟩ : BufTy).Contents (Elt F)),
    StableHlo.unary main_v13 main_v14 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    StableHlo.binary main_v9 main_v14 main_v15 (subf : (⟨S4x8192x768, .f32⟩ : BufTy).Contents (Elt F) → (⟨S4x8192x768, .f32⟩ : BufTy).Contents (Elt F) → (⟨S4x8192x768, .f32⟩ : BufTy).Contents (Elt F)),
    StableHlo.binary main_v15 main_v15 main_v16 (mulf : (⟨S4x8192x768, .f32⟩ : BufTy).Contents (Elt F) → (⟨S4x8192x768, .f32⟩ : BufTy).Contents (Elt F) → (⟨S4x8192x768, .f32⟩ : BufTy).Contents (Elt F)),
    StableHlo.nullary main_cst_2 (constant S_ .f32 0x00000000#32),
    StableHlo.binary main_v16 main_cst_2 main_v17 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    StableHlo.unary main_v17 main_v18 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_3 (constant S_ .f32 0x44400000#32),
    StableHlo.unary main_cst_3 main_v19 (broadcastInDim S4x8192x1 ![] bcast_S_S4x8192x1 : (⟨S_, .f32⟩ : BufTy).Contents (Elt F) → (⟨S4x8192x1, .f32⟩ : BufTy).Contents (Elt F)),
    StableHlo.binary main_v18 main_v19 main_v20 (Host.divf : (⟨S4x8192x1, .f32⟩ : BufTy).Contents (Elt F) → (⟨S4x8192x1, .f32⟩ : BufTy).Contents (Elt F) → (⟨S4x8192x1, .f32⟩ : BufTy).Contents (Elt F)),
    StableHlo.unary main_v13 main_v21 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    StableHlo.binary main_v9 main_v21 main_v22 (subf : (⟨S4x8192x768, .f32⟩ : BufTy).Contents (Elt F) → (⟨S4x8192x768, .f32⟩ : BufTy).Contents (Elt F) → (⟨S4x8192x768, .f32⟩ : BufTy).Contents (Elt F)),
    StableHlo.nullary main_cst_4 (constant S_ .f32 0x2B8CBCCC#32),
    StableHlo.unary main_cst_4 main_v23 (broadcastInDim S4x8192x1 ![] bcast_S_S4x8192x1 : (⟨S_, .f32⟩ : BufTy).Contents (Elt F) → (⟨S4x8192x1, .f32⟩ : BufTy).Contents (Elt F)),
    StableHlo.binary main_v20 main_v23 main_v24 (addf : (⟨S4x8192x1, .f32⟩ : BufTy).Contents (Elt F) → (⟨S4x8192x1, .f32⟩ : BufTy).Contents (Elt F) → (⟨S4x8192x1, .f32⟩ : BufTy).Contents (Elt F)),
    StableHlo.unary main_v24 main_v25 (Host.sqrt : (⟨S4x8192x1, .f32⟩ : BufTy).Contents (Elt F) → (⟨S4x8192x1, .f32⟩ : BufTy).Contents (Elt F)),
    StableHlo.unary main_v25 main_v26 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    StableHlo.binary main_v22 main_v26 main_v27 (Host.divf : (⟨S4x8192x768, .f32⟩ : BufTy).Contents (Elt F) → (⟨S4x8192x768, .f32⟩ : BufTy).Contents (Elt F) → (⟨S4x8192x768, .f32⟩ : BufTy).Contents (Elt F)),
    StableHlo.unary main_arg3 main_v28 (broadcastInDim S1x1x768 ![2] bcast_S768_S1x1x768_2 : (⟨S768, .f32⟩ : BufTy).Contents (Elt F) → (⟨S1x1x768, .f32⟩ : BufTy).Contents (Elt F)),
    StableHlo.unary main_v28 main_v29 (broadcastInDim S4x8192x768 ![0, 1, 2] bcast_S1x1x768_S4x8192x768_0_1_2 : (⟨S1x1x768, .f32⟩ : BufTy).Contents (Elt F) → (⟨S4x8192x768, .f32⟩ : BufTy).Contents (Elt F)),
    StableHlo.binary main_v27 main_v29 main_v30 (mulf : (⟨S4x8192x768, .f32⟩ : BufTy).Contents (Elt F) → (⟨S4x8192x768, .f32⟩ : BufTy).Contents (Elt F) → (⟨S4x8192x768, .f32⟩ : BufTy).Contents (Elt F)),
    StableHlo.unary main_arg4 main_v31 (broadcastInDim S1x1x768 ![2] bcast_S768_S1x1x768_2 : (⟨S768, .f32⟩ : BufTy).Contents (Elt F) → (⟨S1x1x768, .f32⟩ : BufTy).Contents (Elt F)),
    StableHlo.unary main_v31 main_v32 (broadcastInDim S4x8192x768 ![0, 1, 2] bcast_S1x1x768_S4x8192x768_0_1_2 : (⟨S1x1x768, .f32⟩ : BufTy).Contents (Elt F) → (⟨S4x8192x768, .f32⟩ : BufTy).Contents (Elt F)),
    StableHlo.binary main_v30 main_v32 main_v33 (addf : (⟨S4x8192x768, .f32⟩ : BufTy).Contents (Elt F) → (⟨S4x8192x768, .f32⟩ : BufTy).Contents (Elt F) → (⟨S4x8192x768, .f32⟩ : BufTy).Contents (Elt F)) ]

/-- The program is that line: calling a function is running its body in place, and sequencing is associative. -/
theorem main_eq (c : Dev nD) : main (F := F) c = seq ops := by
  chain_rfl

/-- No buffer and no semaphore of the signature is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the tensor core only. -/
theorem ops_sub : (ops : List (HloOp τ sig (Elt F))).Forall fun op => op.bufs ⊆ tcRefs τ sig :=
  ⟨nullary_bufs_sub .., nullary_bufs_sub .., unary_bufs_sub .., binary_bufs_sub .., unary_bufs_sub ..,
    unary_bufs_sub .., nullary_bufs_sub .., unary_bufs_sub .., nullary_bufs_sub .., unary_bufs_sub ..,
    binary_bufs_sub .., nullary_bufs_sub .., unary_bufs_sub .., binary_bufs_sub .., ternary_bufs_sub ..,
    unary_bufs_sub .., nullary_bufs_sub .., nullary_bufs_sub .., unary_bufs_sub .., binary_bufs_sub ..,
    unary_bufs_sub .., unary_bufs_sub .., binary_bufs_sub .., binary_bufs_sub .., nullary_bufs_sub ..,
    binary_bufs_sub .., binary_bufs_sub .., unary_bufs_sub .., nullary_bufs_sub .., unary_bufs_sub ..,
    ternary_bufs_sub .., binary_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., nullary_bufs_sub .., binary_bufs_sub .., unary_bufs_sub .., nullary_bufs_sub ..,
    unary_bufs_sub .., binary_bufs_sub .., unary_bufs_sub .., binary_bufs_sub .., binary_bufs_sub ..,
    nullary_bufs_sub .., binary_bufs_sub .., unary_bufs_sub .., nullary_bufs_sub .., unary_bufs_sub ..,
    binary_bufs_sub .., unary_bufs_sub .., binary_bufs_sub .., nullary_bufs_sub .., unary_bufs_sub ..,
    binary_bufs_sub .., unary_bufs_sub .., unary_bufs_sub .., binary_bufs_sub .., unary_bufs_sub ..,
    unary_bufs_sub .., binary_bufs_sub .., unary_bufs_sub .., unary_bufs_sub .., binary_bufs_sub ..⟩

/-- Every weakly fair execution terminates, each buffer at the fold of the operations over the contents at the
    start. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

set_option maxHeartbeats 1000000 in
set_option maxRecDepth 8192 in
/-- The fold at the last buffer: read backwards along the data flow, each buffer is its operation's function of the
    buffers it reads, down to the arguments and the constants; a value carried between a function's own type and its
    buffer's type is carried along an equation of a type with itself, hence unchanged. The composed term is `result`
    with its definitions written out. -/
theorem out_eq (V : Valuation τ sig (Elt F)) :
    after ops V (main_v33 : DevRef τ sig)
      = result (V (main_arg0 : DevRef τ sig)) (V (main_arg1 : DevRef τ sig)) (V (main_arg2 : DevRef τ sig))
          (V (main_arg3 : DevRef τ sig)) (V (main_arg4 : DevRef τ sig)) := by
  after_results_simp
  simp only [TRef.ofBuf, TRef.toBuf, cast_eq]
  rfl

/-! An argument is written by no operation: each of the eighty-five leaves it as it was. -/

set_option maxHeartbeats 1000000 in
set_option maxRecDepth 8192 in
theorem arg0_eq (V : Valuation τ sig (Elt F)) :
    after ops V (main_arg0 : DevRef τ sig) = V (main_arg0 : DevRef τ sig) := by
  after_results_simp

set_option maxHeartbeats 1000000 in
set_option maxRecDepth 8192 in
theorem arg1_eq (V : Valuation τ sig (Elt F)) :
    after ops V (main_arg1 : DevRef τ sig) = V (main_arg1 : DevRef τ sig) := by
  after_results_simp

set_option maxHeartbeats 1000000 in
set_option maxRecDepth 8192 in
theorem arg2_eq (V : Valuation τ sig (Elt F)) :
    after ops V (main_arg2 : DevRef τ sig) = V (main_arg2 : DevRef τ sig) := by
  after_results_simp

set_option maxHeartbeats 1000000 in
set_option maxRecDepth 8192 in
theorem arg3_eq (V : Valuation τ sig (Elt F)) :
    after ops V (main_arg3 : DevRef τ sig) = V (main_arg3 : DevRef τ sig) := by
  after_results_simp

set_option maxHeartbeats 1000000 in
set_option maxRecDepth 8192 in
theorem arg4_eq (V : Valuation τ sig (Elt F)) :
    after ops V (main_arg4 : DevRef τ sig) = V (main_arg4 : DevRef τ sig) := by
  after_results_simp

end Line

/-- From any memory with zero counters every weakly fair execution of the reference terminates, its result buffer at
    the pure function of the five arguments, the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v33)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun _ h c =>
      ⟨(h c main_v33).trans (Line.out_eq (StableHlo.launchContents m c)),
        (h c main_arg0).trans (Line.arg0_eq (StableHlo.launchContents m c)),
        (h c main_arg1).trans (Line.arg1_eq (StableHlo.launchContents m c)),
        (h c main_arg2).trans (Line.arg2_eq (StableHlo.launchContents m c)),
        (h c main_arg3).trans (Line.arg3_eq (StableHlo.launchContents m c)),
        (h c main_arg4).trans (Line.arg4_eq (StableHlo.launchContents m c))⟩)
    (Line.run_all m ρ)

end Cert.ReferenceIdeal.RefRun

end
-- ==== Proof.RefValue.lean ====
/-
  The reference's result term read at one index on the extended reals.

  The position ids are the words of s + 2 and the token-type ids are zero, so neither is negative (no id is shifted) and
  each is the number of a row of its table (the range test answers 1 and the fill word is never read). Each lookup
  then reads one table row, the three rows are added, and the mean, the mean squared deviation, the root and the
  quotient are read entry by entry: the result at (b, s, h) is the two-pass normalised row of the summed embeddings.
-/
import proofs.«158010_g41644002902592_cont_8to1_b_1119_17_alg».proof.Proof.RefTerm
import proofs.«158010_g41644002902592_cont_8to1_b_1119_17_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.RefRun

open Idealize.ShloMosaic Idealize.ShloMosaic.ValueIdx Idealize.SL.Sem
open Cert.ReferenceIdeal Cert.ReferenceIdeal.Facts₀

variable [Facts]

/-! ## The id arrays at an index -/

/-- The position id at (b, s) is the word of s + 2. -/
theorem posIds_apply (b : Fin 4) (s : Fin 8192) : posIds (ix2 b s) = BitVec.ofNat 32 (s.val + 2) := by
  unfold posIds
  rw [broadcastInDim_apply (k := ix2 (0 : Fin 1) s) (hk := fun a => by match a with | ⟨0, _⟩ => rfl | ⟨1, _⟩ => rfl)]
  rw [broadcastInDim_apply (k := ix1 s) (hk := fun a => by match a with | ⟨0, _⟩ => rfl)]
  show IntOp.addi (2#32) (BitVec.ofNat 32 s.val) = _
  unfold IntOp.addi
  apply BitVec.eq_of_toNat_eq
  simp only [BitVec.toNat_add, BitVec.toNat_ofNat]
  omega

/-- Every token-type id is the zero word. -/
theorem ttIds_apply (j : S4x8192.Idx) : ttIds j = 0#32 := rfl

/-! ## Shifting a negative id, and the test "is a row of the table" -/

/-- A word below 2³¹ is not negative: the signed test "less than zero" answers 0. -/
theorem slt_zero_of_small (a : BitVec 32) (h : a.toNat < 2 ^ 31) : IntOp.cmpi .slt a 0#32 = 0#1 := by
  refine eq_zero_of_ne_one fun h1 => ?_
  have := (StableHlo.Predicate.slt_iff_toNat (a := a) (b := 0#32) h (by decide)).1 h1
  simp at this

/-- An id that is not negative is not shifted: the column entry (b, s, ·) is the id at (b, s). -/
theorem wrapped_apply (N : BitVec 32) (idx : IVec S4x8192 32) (b : Fin 4) (s : Fin 8192) (c : Fin 1)
    (h : (idx (ix2 b s)).toNat < 2 ^ 31) : wrapped N idx (ix3 b s c) = idx (ix2 b s) := by
  unfold wrapped
  rw [broadcastInDim_apply (k := ix2 b s) (hk := fun a => by match a with | ⟨0, _⟩ => rfl | ⟨1, _⟩ => rfl)]
  rw [select_apply]
  have hc : cmpi .slt idx (broadcastInDim S4x8192 ![] bcast_S_S4x8192 (constantI S_ 32 0#32)) (ix2 b s) = 0#1 :=
    slt_zero_of_small _ h
  rw [hc, select_zero]

/-- Over the column's last axis (of size one), the index above (b, s) with last coordinate k is (b, s, k). -/
theorem lift1 (hR : S4x8192x1.Reduces [2] S4x8192) (b : Fin 4) (s : Fin 8192) (k : Fin 1) :
    hR.lift (ix2 b s) k = ix3 b s k := by
  funext c
  match c with
  | ⟨0, _⟩ => rfl
  | ⟨1, _⟩ => rfl
  | ⟨2, _⟩ => rfl

/-- Likewise over the last axis of size 768. -/
theorem lift768 (hR : S4x8192x768.Reduces [2] S4x8192) (b : Fin 4) (s : Fin 8192) (k : Fin 768) :
    hR.lift (ix2 b s) k = ix3 b s k := by
  funext c
  match c with
  | ⟨0, _⟩ => rfl
  | ⟨1, _⟩ => rfl
  | ⟨2, _⟩ => rfl

/-- A conjunction folded over a one-element index set is the one element's bit and the initial bit. -/
theorem fold_andi_one (f : Fin 1 → BitVec 1) (init : BitVec 1) :
    (Finset.univ : Finset (Fin 1)).fold IntOp.andi init f = IntOp.andi (f 0) init := by
  rw [Finset.univ_unique, Finset.fold_singleton]; rfl

/-- Where the shifted id at (b, s) lies in [0, M] (M below 2³¹), the test answers 1 along the whole row (b, s, ·). -/
theorem inTable_apply (M : BitVec 32) (w : IVec S4x8192x1 32) (b : Fin 4) (s : Fin 8192) (h : Fin 768)
    (hM : M.toNat < 2 ^ 31) (hw : (w (ix3 b s 0)).toNat ≤ M.toNat) : inTable M w (ix3 b s h) = 1#1 := by
  unfold inTable
  rw [broadcastInDim_apply (k := ix2 b s) (hk := fun a => by match a with | ⟨0, _⟩ => rfl | ⟨1, _⟩ => rfl)]
  have hR : S4x8192x1.Reduces [2] S4x8192 := by decide
  refine (Host.reduce_eq_fold_single IntOp.andi _ _ reducesTo_S4x8192x1_S4x8192_d2 hR h_S_ (ix2 b s)).trans ?_
  refine (fold_andi_one _ _).trans ?_
  show IntOp.andi (IntOp.andi (IntOp.cmpi .sge (w (hR.lift (ix2 b s) (0 : Fin 1))) 0#32)
    (IntOp.cmpi .sle (w (hR.lift (ix2 b s) (0 : Fin 1))) M)) 1#1 = 1#1
  rw [lift1]
  have hw31 : (w (ix3 b s 0)).toNat < 2 ^ 31 := by omega
  refine IntOp.andi_eq_one.2 ⟨IntOp.andi_eq_one.2 ⟨?_, ?_⟩, rfl⟩
  · exact (StableHlo.Predicate.sge_iff_toNat hw31 (by decide)).2 (Nat.zero_le _)
  · exact (StableHlo.Predicate.sle_iff_toNat hw31 hM).2 hw

/-! ## The row lookup at an index -/

section RowLookup
variable {α : Type}

/-- The row lookup's dimension numbers for a table of N rows of 768: one start-index component, naming the collapsed
    row axis; the result's last axis runs along the row. -/
abbrev rowDims (N : Nat) (wf : GatherDims.WF ⟨2, ![N, 768]⟩ S4x8192x1 S4x8192x768 [2] [0] [] [0] [] 2 ![1, 768]) :
    GatherDims ⟨2, ![N, 768]⟩ S4x8192x1 S4x8192x768 where
  offsetDims := [2]
  collapsedSliceDims := [0]
  operandBatchingDims := []
  startIndicesBatchingDims := []
  startIndexMap := [0]
  indexVectorDim := 2
  sliceSizes := ![1, 768]
  wf := wf

/-- Entry (b, s, h) of the row lookup is entry h of the table's row whose number is the start index at (b, s, 0), read
    signed and clamped into the table. -/
theorem gatherRow_apply {N : Nat} (hN : 0 < N)
    (wf : GatherDims.WF ⟨2, ![N, 768]⟩ S4x8192x1 S4x8192x768 [2] [0] [] [0] [] 2 ![1, 768])
    (tab : (⟨2, ![N, 768]⟩ : Shape).Idx → α) (w : IVec S4x8192x1 32) (b : Fin 4) (s : Fin 8192) (h : Fin 768) :
    Host.gather (rowDims N wf) tab w (ix3 b s h)
      = tab (ix2 ⟨min (w (ix3 b s 0)).toInt.toNat (N - 1), by omega⟩ h) := by
  unfold Host.gather
  congr 1
  funext a
  match a with
  | ⟨0, _⟩ =>
    -- the row axis: the clamped start index; no batching coordinate, and no offset on a collapsed axis
    apply Fin.ext
    show (rowDims N wf).start (ix3 b s h) w 0 + (rowDims N wf).batchCoord (ix3 b s h) 0
      + (rowDims N wf).offCoord (ix3 b s h) 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix3 b s h) ⟨List.idxOf (0 : Fin 2) (rowDims N wf).startIndexMap,
        List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    rw [hsi]
    rfl
  | ⟨1, _⟩ =>
    -- the axis along the row: no start index names it, so the slice starts at 0 and the offset is h
    apply Fin.ext
    show (rowDims N wf).start (ix3 b s h) w 1 + (rowDims N wf).batchCoord (ix3 b s h) 1
      + (rowDims N wf).offCoord (ix3 b s h) 1 = h.val
    rw [GatherDims.batchCoord_eq_zero _ _ _ List.not_mem_nil]
    unfold GatherDims.start
    rw [dif_neg (show (1 : Fin 2) ∉ (rowDims N wf).startIndexMap from
      fun hh => Nat.one_ne_zero (congrArg Fin.val (List.mem_singleton.mp hh)))]
    simp only [Nat.add_zero, Nat.zero_add]
    rfl

/-- The same with the row named: when the start index, read signed, is the number of a row r, the lookup reads row r. -/
theorem gatherRow_apply_of {N : Nat}
    (wf : GatherDims.WF ⟨2, ![N, 768]⟩ S4x8192x1 S4x8192x768 [2] [0] [] [0] [] 2 ![1, 768])
    (tab : (⟨2, ![N, 768]⟩ : Shape).Idx → α) (w : IVec S4x8192x1 32) (b : Fin 4) (s : Fin 8192) (h : Fin 768)
    (r : Fin N) (hr : (w (ix3 b s 0)).toInt.toNat = r.val) :
    Host.gather (rowDims N wf) tab w (ix3 b s h) = tab (ix2 r h) := by
  have hN : 0 < N := Nat.lt_of_le_of_lt (Nat.zero_le _) r.isLt
  rw [gatherRow_apply hN]
  have hrow : (⟨min (w (ix3 b s 0)).toInt.toNat (N - 1), by omega⟩ : Fin N) = r := by
    apply Fin.ext
    show min (w (ix3 b s 0)).toInt.toNat (N - 1) = r.val
    rw [hr]; have := r.isLt; omega
  rw [hrow]

end RowLookup

/-! ## The two lookups and the summed embeddings -/

/-- Every token-type id is 0, a row of the two-row table: the lookup reads row 0 and fills nothing. -/
theorem takeTT_apply (tt : FVec Ideal S2x768 .f32) (b : Fin 4) (s : Fin 8192) (h : Fin 768) :
    takeTT (F := Ideal) tt ttIds (ix3 b s h) = tt (ix2 (0 : Fin 2) h) := by
  have hw : ∀ c : Fin 1, wrapped 2#32 ttIds (ix3 b s c) = 0#32 := fun c =>
    wrapped_apply 2#32 ttIds b s c (by rw [ttIds_apply]; decide)
  unfold takeTT
  rw [select_apply, inTable_apply 1#32 _ b s h (by decide) (by rw [hw]; decide), select_one]
  exact gatherRow_apply_of gather_S2x768_S4x8192x1_S4x8192x768_2_0_n_n_0_2_1768_wf tt _ b s h 0 (by rw [hw]; decide)

/-- The position id s + 2 is at most 8193, a row of the 8194-row table: the lookup reads row s + 2 and fills nothing. -/
theorem takePos_apply (pos : FVec Ideal S8194x768 .f32) (b : Fin 4) (s : Fin 8192) (h : Fin 768) :
    takePos (F := Ideal) pos posIds (ix3 b s h) = pos (ix2 (Cert.LN.posRow s) h) := by
  have hs := s.isLt
  have hw : ∀ c : Fin 1, wrapped 8194#32 posIds (ix3 b s c) = BitVec.ofNat 32 (s.val + 2) := fun c => by
    rw [wrapped_apply 8194#32 posIds b s c (by rw [posIds_apply, BitVec.toNat_ofNat]; omega), posIds_apply]
  have hn : (BitVec.ofNat 32 (s.val + 2)).toNat = s.val + 2 := by rw [BitVec.toNat_ofNat]; omega
  unfold takePos
  rw [select_apply, inTable_apply 8193#32 _ b s h (by decide) (by rw [hw, hn]; show s.val + 2 ≤ 8193; omega), select_one]
  refine gatherRow_apply_of gather_S8194x768_S4x8192x1_S4x8192x768_2_0_n_n_0_2_1768_wf pos _ b s h (Cert.LN.posRow s) ?_
  rw [hw, StableHlo.Predicate.toInt_ofNat_small _ (by omega)]
  rfl

/-- Entry (b, s, k) of the summed embeddings: (input + token-type row 0) + position row s + 2. -/
theorem emb_apply (x : FVec Ideal S4x8192x768 .f32) (tt : FVec Ideal S2x768 .f32) (pos : FVec Ideal S8194x768 .f32)
    (b : Fin 4) (s : Fin 8192) (k : Fin 768) :
    emb (F := Ideal) x tt pos (ix3 b s k) = Cert.LN.embR x tt pos b s k := by
  unfold emb
  rw [addf_apply, addf_apply, takeTT_apply, takePos_apply]
  rfl

/-! ## The normalisation at an index -/

theorem hdivf_apply {s : Shape} {φ : FTy} (a b : FVec Ideal s φ) (i : s.Idx) : Host.divf a b i = Ideal.div (a i) (b i) := rfl
theorem hsqrt_apply {s : Shape} {φ : FTy} (a : FVec Ideal s φ) (i : s.Idx) : Host.sqrt a i = Ideal.sqrt (a i) := rfl

/-- The sum over the last axis from the zero word: at (b, s), the sum of the row (b, s, ·). -/
theorem reduceAdd_apply (e : FVec Ideal S4x8192x768 .f32) (b : Fin 4) (s : Fin 8192) :
    Host.reduceAdd (F := Ideal) e (constant (F := Ideal) S_ .f32 0x00000000#32) reducesTo_S4x8192x768_S4x8192_d2 h_S_ (ix2 b s)
      = ∑ k : Fin 768, e (ix3 b s k) := by
  have hR : S4x8192x768.Reduces [2] S4x8192 := by decide
  show Ideal.hostReduceAdd reducesTo_S4x8192x768_S4x8192_d2 e (Ideal.ofBits .f32 0x00000000#32) (ix2 b s) = _
  rw [Ideal.hostReduceAdd_single _ hR, Ideal.ofBits_zero_f32, zero_add]
  show ∑ k : Fin 768, e (hR.lift (ix2 b s) k) = _
  simp only [lift768]

theorem cntCol_apply (i : S4x8192x1.Idx) : cntCol (F := Ideal) i = Cert.LN.cnt := rfl

/-- The mean column at (b, s, ·) is the mean of the row (b, s, ·). -/
theorem meanCol_apply (e : FVec Ideal S4x8192x768 .f32) (b : Fin 4) (s : Fin 8192) (c : Fin 1) :
    meanCol (F := Ideal) e (ix3 b s c) = Cert.LN.mean (fun k => e (ix3 b s k)) := by
  unfold meanCol
  rw [hdivf_apply, cntCol_apply]
  rw [broadcastInDim_apply (k := ix2 b s) (hk := fun a => by match a with | ⟨0, _⟩ => rfl | ⟨1, _⟩ => rfl)]
  rw [reduceAdd_apply]
  rfl

/-- A column laid out over the last axis reads, at (b, s, h), the column at (b, s, 0). -/
theorem overLast_apply (v : FVec Ideal S4x8192x1 .f32) (b : Fin 4) (s : Fin 8192) (h : Fin 768) :
    overLast (F := Ideal) v (ix3 b s h) = v (ix3 b s 0) := by
  unfold overLast
  exact broadcastInDim_apply _ _ _ _ (ix3 b s 0) (fun a => by match a with | ⟨0, _⟩ => rfl | ⟨1, _⟩ => rfl | ⟨2, _⟩ => rfl)

/-- A vector laid out over the rows reads, at (b, s, h), the vector at h. -/
theorem overRows_apply (v : FVec Ideal S768 .f32) (b : Fin 4) (s : Fin 8192) (h : Fin 768) :
    overRows (F := Ideal) v (ix3 b s h) = v (ix1 h) := by
  unfold overRows
  rw [broadcastInDim_apply (k := ix3 (0 : Fin 1) (0 : Fin 1) h)
    (hk := fun a => by match a with | ⟨0, _⟩ => rfl | ⟨1, _⟩ => rfl | ⟨2, _⟩ => rfl)]
  exact broadcastInDim_apply _ _ _ _ (ix1 h) (fun a => by match a with | ⟨0, _⟩ => rfl)

theorem epsCol_apply (i : S4x8192x1.Idx) :
    broadcastInDim S4x8192x1 ![] bcast_S_S4x8192x1 (constant (F := Ideal) S_ .f32 0x2B8CBCCC#32) i = Cert.LN.eps := rfl

/-- Entry (b, s, h) of the normalisation of e is the two-pass normalised row of e's row (b, s, ·), at h. -/
theorem normed_apply (e : FVec Ideal S4x8192x768 .f32) (g be : FVec Ideal S768 .f32) (b : Fin 4) (s : Fin 8192) (h : Fin 768) :
    normed (F := Ideal) e g be (ix3 b s h)
      = Cert.LN.rowR (fun k => e (ix3 b s k)) (fun k => g (ix1 k)) (fun k => be (ix1 k)) h := by
  unfold normed
  rw [addf_apply, mulf_apply, overRows_apply, overRows_apply, hdivf_apply, overLast_apply, hsqrt_apply, addf_apply, epsCol_apply,
    meanCol_apply, subf_apply, overLast_apply, meanCol_apply]
  simp only [mulf_apply, subf_apply, overLast_apply, meanCol_apply]
  rfl

/-! ## The result -/

/-- Read on the extended reals, entry (b, s, h) of the reference's result is the two-pass normalised row of
    (input row (b, s) + token-type row 0) + position row s + 2: every id is a row of its table, so no lookup is filled. -/
theorem result_eq_outR (x : FVec Ideal S4x8192x768 .f32) (tt : FVec Ideal S2x768 .f32) (pos : FVec Ideal S8194x768 .f32)
    (g be : FVec Ideal S768 .f32) : result (F := Ideal) x tt pos g be = Cert.LN.outR x tt pos g be := by
  funext i
  obtain ⟨b, s, h, rfl⟩ : ∃ b s h, i = ix3 b s h := ⟨i 0, i 1, i 2, eq_ix3 i⟩
  rw [Cert.LN.outR_apply]
  unfold result
  rw [normed_apply]
  simp only [emb_apply]

end Cert.ReferenceIdeal.RefRun

end
-- ==== Proof.LibLinear.lean ====
/-
  Finite sums of real numbers inside the extended reals, and the exchange of a weighted row sum with a matrix product.

  For rows x e (e in a finite set S) with real entries, real weights c e and a real column W:
    Σ k, (Σ e ∈ S, x e k · c e) · W k  =  Σ e ∈ S, (Σ k, x e k · W k) · c e.
  Both sides are the real number Σ e ∈ S, Σ k, x e k · c e · W k; on the extended reals the law needs every factor
  finite, because a product does not distribute over a sum that mixes infinities.
-/
import Idealize.ShloMosaic.PureOps.Ideal

noncomputable section

namespace Cert.LibLinear

/-- The extended real of a finite sum of reals is the sum of the extended reals. -/
theorem coe_sum {ι : Type} (S : Finset ι) (f : ι → ℝ) : ((∑ i ∈ S, f i : ℝ) : EReal) = ∑ i ∈ S, (f i : EReal) := by
  classical
  refine Finset.induction_on S ?_ ?_
  · simp
  · intro a s ha ih
    rw [Finset.sum_insert ha, Finset.sum_insert ha, EReal.coe_add, ih]

/-- A finite sum of extended reals that are all real is real. -/
theorem sum_real {ι : Type} (S : Finset ι) (f : ι → EReal) (hf : ∀ i ∈ S, ∃ r : ℝ, f i = (r : EReal)) :
    ∃ r : ℝ, ∑ i ∈ S, f i = (r : EReal) := by
  refine ⟨∑ i ∈ S, (f i).toReal, ?_⟩
  rw [coe_sum]
  refine Finset.sum_congr rfl (fun i hi => ?_)
  obtain ⟨r, hr⟩ := hf i hi
  rw [hr, EReal.toReal_coe]

/-- The exchange law. -/
theorem exchange {E K : Type} [Fintype K] (S : Finset E) (x : E → K → EReal) (cw : E → EReal) (W : K → EReal)
    (hx : ∀ e k, ∃ r : ℝ, x e k = (r : EReal)) (hc : ∀ e, ∃ r : ℝ, cw e = (r : EReal)) (hW : ∀ k, ∃ r : ℝ, W k = (r : EReal)) :
    ∑ k : K, (∑ e ∈ S, x e k * cw e) * W k = ∑ e ∈ S, (∑ k : K, x e k * W k) * cw e := by
  -- real witnesses for every entry
  choose xr hxr using hx
  choose cr hcr using hc
  choose Wr hWr using hW
  -- the left side is the extended real of a real double sum
  have hL : ∑ k : K, (∑ e ∈ S, x e k * cw e) * W k
      = ((∑ k : K, (∑ e ∈ S, xr e k * cr e) * Wr k : ℝ) : EReal) := by
    rw [coe_sum]
    refine Finset.sum_congr rfl (fun k _ => ?_)
    rw [EReal.coe_mul, coe_sum, hWr]
    congr 1
    refine Finset.sum_congr rfl (fun e _ => ?_)
    rw [EReal.coe_mul, hxr, hcr]
  -- so is the right side
  have hR : ∑ e ∈ S, (∑ k : K, x e k * W k) * cw e
      = ((∑ e ∈ S, (∑ k : K, xr e k * Wr k) * cr e : ℝ) : EReal) := by
    rw [coe_sum]
    refine Finset.sum_congr rfl (fun e _ => ?_)
    rw [EReal.coe_mul, coe_sum, hcr]
    congr 1
    refine Finset.sum_congr rfl (fun k _ => ?_)
    rw [EReal.coe_mul, hxr, hWr]
  rw [hL, hR]
  congr 1
  -- over the reals: distribute, swap the two sums, and compare term by term
  simp only [Finset.sum_mul]
  rw [Finset.sum_comm]
  refine Finset.sum_congr rfl (fun e _ => Finset.sum_congr rfl (fun k _ => ?_))
  ring

end Cert.LibLinear

end
-- ==== Proof.Algebra.lean ====
/-
  The two forms of a normalised row agree on rows of real numbers.

  For a row y of 768 reals with mean μ = (Σ y)/768, the single-pass variance (Σ y²)/768 − μ² equals the two-pass
  variance (Σ (y − μ)²)/768, because the divisor is exactly the number of entries. That common value is ≥ 0 and the
  added constant is > 0, so the argument z of the root is a positive real; for such z, multiplying by the reciprocal
  root and dividing by the root are the same product with (√z)⁻¹. The two orders of adding the three embeddings give
  the same real row.
-/
import proofs.«158010_g41644002902592_cont_8to1_b_1119_17_alg».proof.Proof.Spec
import proofs.«158010_g41644002902592_cont_8to1_b_1119_17_alg».proof.Proof.LibLinear
import Mathlib.Analysis.SpecialFunctions.Pow.Real
import Mathlib.Tactic.Ring
import Mathlib.Tactic.NormNum

noncomputable section

namespace Cert.LN

open Idealize.ShloMosaic Idealize.ShloMosaic.ValueIdx

/-! ### The two constants -/

/-- The divisor is the real number 768. -/
theorem cnt_eq : cnt = ((768 : ℝ) : EReal) := by
  unfold cnt
  simp [Ideal.ofBits, Ideal.ieee, -EReal.coe_mul]; norm_num

/-- The added constant is a positive real. -/
theorem eps_eq : ∃ e : ℝ, 0 < e ∧ eps = (e : EReal) := by
  unfold eps
  simp [Ideal.ofBits, Ideal.ieee, -EReal.coe_mul]

/-! ### Roots of a positive real -/

theorem rsqrt_pos (z : ℝ) (hz : 0 < z) : Ideal.rsqrt (z : EReal) = (((Real.sqrt z)⁻¹ : ℝ) : EReal) := by
  rw [Ideal.rsqrt_coe, if_neg (not_lt.mpr hz.le), if_neg hz.ne']

theorem div_sqrt_pos (a : EReal) (z : ℝ) (hz : 0 < z) :
    Ideal.div a (Ideal.sqrt (z : EReal)) = a * (((Real.sqrt z)⁻¹ : ℝ) : EReal) := by
  rw [Ideal.sqrt_coe, if_neg (not_lt.mpr hz.le), Ideal.div_coe (Real.sqrt_pos.mpr hz).ne', one_div]

/-! ### The variance identity over the reals -/

/-- The real mean of a real row. -/
def mu (y : Fin 768 → ℝ) : ℝ := (∑ k, y k) * (1 / 768)

theorem sum_eq_mu (y : Fin 768 → ℝ) : ∑ k, y k = 768 * mu y := by
  unfold mu; ring

/-- Σ (y − μ)² = Σ y² − 2 μ Σ y + 768 μ². -/
theorem sum_centred_sq (y : Fin 768 → ℝ) :
    ∑ k, (y k - mu y) * (y k - mu y) = (∑ k, y k * y k) - 2 * mu y * (∑ k, y k) + 768 * (mu y * mu y) := by
  have h : ∀ k, (y k - mu y) * (y k - mu y) = y k * y k - 2 * mu y * y k + mu y * mu y := fun k => by ring
  simp only [h]
  rw [Finset.sum_add_distrib, Finset.sum_sub_distrib, ← Finset.mul_sum, Finset.sum_const, Finset.card_univ,
    Fintype.card_fin, nsmul_eq_mul]
  norm_num

/-- Single-pass variance = two-pass variance. -/
theorem var_eq (y : Fin 768 → ℝ) :
    (∑ k, y k * y k) * (1 / 768) - mu y * mu y = (∑ k, (y k - mu y) * (y k - mu y)) * (1 / 768) := by
  rw [sum_centred_sq, sum_eq_mu y]; ring

theorem var_nonneg (y : Fin 768 → ℝ) : 0 ≤ (∑ k, (y k - mu y) * (y k - mu y)) * (1 / 768) := by
  refine mul_nonneg (Finset.sum_nonneg (fun k _ => mul_self_nonneg _)) (by norm_num)

/-! ### A row of reals -/

theorem mean_coe (y : Fin 768 → ℝ) : mean (fun k => (y k : EReal)) = ((mu y : ℝ) : EReal) := by
  unfold mean mu
  rw [cnt_eq, Ideal.div_coe (by norm_num), ← Cert.LibLinear.coe_sum, ← EReal.coe_mul]

/-- The argument of the reciprocal root in the first form. -/
theorem argK_coe (y : Fin 768 → ℝ) (e : ℝ) (he : eps = (e : EReal)) :
    Ideal.div (∑ k, (y k : EReal) * (y k : EReal)) cnt
        - mean (fun k => (y k : EReal)) * mean (fun k => (y k : EReal)) + eps
      = (((∑ k, (y k - mu y) * (y k - mu y)) * (1 / 768) + e : ℝ) : EReal) := by
  rw [mean_coe, cnt_eq, Ideal.div_coe (by norm_num), he, ← var_eq]
  simp only [← EReal.coe_mul, ← Cert.LibLinear.coe_sum, ← EReal.coe_sub, ← EReal.coe_add]

/-- The argument of the root in the second form. -/
theorem argR_coe (y : Fin 768 → ℝ) (e : ℝ) (he : eps = (e : EReal)) :
    Ideal.div (∑ k, ((y k : EReal) - mean (fun k => (y k : EReal))) * ((y k : EReal) - mean (fun k => (y k : EReal)))) cnt
        + eps
      = (((∑ k, (y k - mu y) * (y k - mu y)) * (1 / 768) + e : ℝ) : EReal) := by
  rw [mean_coe, cnt_eq, Ideal.div_coe (by norm_num), he]
  simp only [← EReal.coe_mul, ← Cert.LibLinear.coe_sum, ← EReal.coe_sub, ← EReal.coe_add]

/-- On a row of reals the two forms agree. -/
theorem rowK_eq_rowR_coe (y : Fin 768 → ℝ) (g b : Fin 768 → EReal) (h : Fin 768) :
    rowK (fun k => (y k : EReal)) g b h = rowR (fun k => (y k : EReal)) g b h := by
  obtain ⟨e, hepos, he⟩ := eps_eq
  have hz : 0 < (∑ k, (y k - mu y) * (y k - mu y)) * (1 / 768) + e := add_pos_of_nonneg_of_pos (var_nonneg y) hepos
  have hK := argK_coe y e he
  have hR := argR_coe y e he
  unfold rowK rowR
  simp only [] at hK hR ⊢
  rw [hK, hR, rsqrt_pos _ hz, div_sqrt_pos _ _ hz]

/-! ### The two orders of addition -/

theorem outK_eq_outR (x : A3) (tt : ATT) (pos : APOS) (g be : AV)
    (hx : ∀ i, ∃ r : ℝ, x i = (r : EReal)) (htt : ∀ i, ∃ r : ℝ, tt i = (r : EReal)) (hpos : ∀ i, ∃ r : ℝ, pos i = (r : EReal)) :
    outK x tt pos g be = outR x tt pos g be := by
  choose xr hxr using hx
  choose tr htr using htt
  choose pr hpr using hpos
  funext i
  show rowK (embK x tt pos (i 0) (i 1)) _ _ (i 2) = rowR (embR x tt pos (i 0) (i 1)) _ _ (i 2)
  have hK : embK x tt pos (i 0) (i 1)
      = fun k => ((xr (ix3 (i 0) (i 1) k) + (pr (ix2 (posRow (i 1)) k) + tr (ix2 (0 : Fin 2) k)) : ℝ) : EReal) := by
    funext k
    unfold embK
    rw [hxr, htr, hpr, ← EReal.coe_add, ← EReal.coe_add]
  have hR : embR x tt pos (i 0) (i 1)
      = fun k => ((xr (ix3 (i 0) (i 1) k) + (pr (ix2 (posRow (i 1)) k) + tr (ix2 (0 : Fin 2) k)) : ℝ) : EReal) := by
    funext k
    unfold embR
    rw [hxr, htr, hpr, ← EReal.coe_add, ← EReal.coe_add]
    congr 1
    ring
  rw [hK, hR]
  exact rowK_eq_rowR_coe _ _ _ _

end Cert.LN

end
-- ==== Proof.Finite.lean ====
import proofs.«158010_g41644002902592_cont_8to1_b_1119_17_alg».proof.Pre_finite_inputs
import proofs.«158010_g41644002902592_cont_8to1_b_1119_17_alg».proof.Proof.Gen.Pre_finite_inputs
import Idealize.ShloMosaic.PureOps.Ideal
import Idealize.ShloMosaic.Lib.ValueIdx
import Idealize.ShloMosaic.Lib.ReduceAll

/-!
# From "every float input is finite" to "every entry is a real number"

The precondition compares, entry by entry, the absolute value of each float input with +∞ (strictly below),
takes the conjunction over all entries of each input, and the conjunction of the five results.  Over the
extended reals an entry whose absolute value lies strictly below +∞ is neither +∞ nor −∞, hence a real number.
-/

namespace Cert.Finite

open Idealize.ShloMosaic Cert.Pre_finite_inputs

/-- The scalar shape has exactly one index. -/
instance subsingleton_scalar_idx : Subsingleton S_.Idx := ⟨fun a b => funext fun d => d.elim0⟩

/-- An extended real whose absolute value `max v (-v)` is strictly below the value of the f32 pattern of +∞
    is a real number: `⊤` and `⊥` both have absolute value `⊤`. -/
theorem real_of_abs_lt (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- One input: if the conjunction over all entries of `|a| < +∞` is true, every entry of `a` is real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) (i : s.Idx) : ∃ r : ℝ, a i = (r : EReal) :=
  real_of_abs_lt (a i) (Host.reduce_andi_all _ _ hr hu ValueIdx.ix0 e i)

theorem real_of_pre [Cert.Pre_finite_inputs.Facts] (x : FVec Ideal S4x8192x768 .f32) (tt : FVec Ideal S2x768 .f32) (pos : FVec Ideal S8194x768 .f32)
    (g be : FVec Ideal S768 .f32) (h : Cert.Pre_finite_inputs.fn (F := Ideal) x tt pos g be = fun _ => 1#1) :
    (∀ i, ∃ r : ℝ, x i = (r : EReal)) ∧ (∀ i, ∃ r : ℝ, tt i = (r : EReal)) ∧ (∀ i, ∃ r : ℝ, pos i = (r : EReal)) := by
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, hpos⟩ := IntOp.andi_eq_one.1 h2
  obtain ⟨hx, htt⟩ := IntOp.andi_eq_one.1 h3
  exact ⟨real_of_all x _ _ _ hx, real_of_all tt _ _ _ htt, real_of_all pos _ _ _ hpos⟩

end Cert.Finite
-- ==== Proof.lean ====
/-
  The certificate's five claims, assembled.

  The kernel adds to each input row (b, s) the position table's row s + 2 and the token-type table's row 0 and
  layer-normalises the sum over its 768 entries with a single-pass variance and a reciprocal square root; the reference
  looks the two rows up, adds them in another order, and normalises with a two-pass variance and a quotient by the root.
  On real inputs the two are one function: the variance identity holds because the divisor is exactly the row length, and
  variance + ε is positive. The three frames are the programs' runs read at their argument arrays.
-/
import proofs.«158010_g41644002902592_cont_8to1_b_1119_17_alg».proof.Defs
import proofs.«158010_g41644002902592_cont_8to1_b_1119_17_alg».proof.Proof.Gen.Kernel
import proofs.«158010_g41644002902592_cont_8to1_b_1119_17_alg».proof.Proof.Gen.KernelIdeal
import proofs.«158010_g41644002902592_cont_8to1_b_1119_17_alg».proof.Proof.Gen.ReferenceIdeal
import proofs.«158010_g41644002902592_cont_8to1_b_1119_17_alg».proof.Proof.Gen.Pre_finite_inputs
import proofs.«158010_g41644002902592_cont_8to1_b_1119_17_alg».proof.Proof.K.Launch
import proofs.«158010_g41644002902592_cont_8to1_b_1119_17_alg».proof.Proof.KI.Launch
import proofs.«158010_g41644002902592_cont_8to1_b_1119_17_alg».proof.Proof.KI.Value
import proofs.«158010_g41644002902592_cont_8to1_b_1119_17_alg».proof.Proof.RefRun
import proofs.«158010_g41644002902592_cont_8to1_b_1119_17_alg».proof.Proof.RefValue
import proofs.«158010_g41644002902592_cont_8to1_b_1119_17_alg».proof.Proof.Algebra
import proofs.«158010_g41644002902592_cont_8to1_b_1119_17_alg».proof.Proof.Finite
import Idealize.ShloMosaic.Adequacy
import Idealize.ShloMosaic.Init

noncomputable section

namespace Cert.Proof

open Idealize.ShloMosaic Idealize.SL.Sem

/-- The idealized kernel runs and leaves its arguments unchanged. -/
theorem frame_ki : Cert.frame_KernelIdeal := fun m ρ _ =>
  (θ_run (Cert.KernelIdeal.defs (F := Ideal)) _ _).mono (fun _ h c => (h c).2) (Cert.KernelIdeal.Fr.run_out (F := Ideal) m ρ)

/-- The idealized reference runs and leaves its arguments unchanged. -/
theorem frame_ri : Cert.frame_ReferenceIdeal := fun m ρ _ =>
  (θ_run (Cert.ReferenceIdeal.defs (F := Ideal)) _ _).mono (fun _ h c => (h c).2) (Cert.ReferenceIdeal.RefRun.run (F := Ideal) m ρ)

/-- The ideal pass rewrote nothing. -/
theorem preserves : Cert.preserves_Kernel_KernelIdeal := trivial

/-- Both idealized programs end with the same result: the kernel's array is the single-pass form of the normalised
    embeddings, the reference's the two-pass form, and on finite inputs the two forms agree. -/
theorem algebraic : Cert.algebraic_KernelIdeal_ReferenceIdeal := by
  intro m ρ m' ρ' hpre hagree
  refine ⟨fun c => Cert.LN.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run (Cert.KernelIdeal.defs (F := Ideal)) _ _).mono
      (fun _ h c => ⟨(h c).1.trans (Cert.KernelIdeal.Fr.final6 m c), (h c).2⟩) (Cert.KernelIdeal.Fr.run_out (F := Ideal) m ρ)
  · refine (θ_run (Cert.ReferenceIdeal.defs (F := Ideal)) _ _).mono (fun _ h c => ⟨?_, (h c).2⟩)
      (Cert.ReferenceIdeal.RefRun.run (F := Ideal) m' ρ')
    obtain ⟨hx, htt, hpos⟩ := Cert.Finite.real_of_pre _ _ _ _ _ (hpre c)
    rw [(h c).1, Cert.ReferenceIdeal.RefRun.result_eq_outR, (hagree c).1, (hagree c).2.1, (hagree c).2.2.1, (hagree c).2.2.2.1,
      (hagree c).2.2.2.2]
    exact (Cert.LN.outK_eq_outR _ _ _ _ _ hx htt hpos).symm

/-- The word-level kernel runs and leaves its arguments unchanged. -/
theorem frame_k : Cert.frame_Kernel := fun m ρ _ =>
  (θ_run (Cert.Kernel.defs (F := Bits)) _ _).mono (fun _ h c => (h c).2) (Cert.Kernel.Fr.run_out (F := Bits) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
